-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S32x4096 : Shape := ⟨2, ![32, 4096]⟩
abbrev S4096 : Shape := ⟨1, ![4096]⟩
abbrev S512x4096 : Shape := ⟨2, ![512, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S32x4096 .f32) (main_arg2 : FVec F S4096 .f32) (main_arg3 : IVec S512x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S32x4096 : Shape := ⟨2, ![32, 4096]⟩
abbrev S4096 : Shape := ⟨1, ![4096]⟩
abbrev S512x4096 : Shape := ⟨2, ![512, 4096]⟩
abbrev S8192x4096 : Shape := ⟨2, ![8192, 4096]⟩
abbrev S1x4096 : Shape := ⟨2, ![1, 4096]⟩
abbrev S512x1024 : Shape := ⟨2, ![512, 1024]⟩
abbrev S32x1024 : Shape := ⟨2, ![32, 1024]⟩
abbrev S1x1024 : Shape := ⟨2, ![1, 1024]⟩
abbrev S4096x1024 : Shape := ⟨2, ![4096, 1024]⟩
abbrev S128x1024 : Shape := ⟨2, ![128, 1024]⟩
abbrev S8x1024 : Shape := ⟨2, ![8, 1024]⟩
abbrev S128x1x1024 : Shape := ⟨3, ![128, 1, 1024]⟩
abbrev S128x8x1024 : Shape := ⟨3, ![128, 8, 1024]⟩
abbrev S1024x1024 : Shape := ⟨2, ![1024, 1024]⟩
abbrev S8x128x1024 : Shape := ⟨3, ![8, 128, 1024]⟩
abbrev S8x1x1024 : Shape := ⟨3, ![8, 1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S32x4096, .f32⟩
  | .hbm, ⟨2, _⟩ => ⟨S4096, .f32⟩
  | .hbm, ⟨3, _⟩ => ⟨S512x4096, .i32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x1024, .i32⟩
  | .local _ .vmem, ⟨3, _⟩ => ⟨S512x1024, .i32⟩
  | .local _ .vmem, ⟨4, _⟩ => ⟨S32x1024, .f32⟩
  | .local _ .vmem, ⟨5, _⟩ => ⟨S32x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S4096x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_8 : BitVec 32 := 0#32
  let c128_i32 : BitVec 32 := 128#32
  let v13 : BitVec 32 := Scalar.muli c0_i32_8 c128_i32
  v13
def k0_mult2 : BitVec 32 :=
  let c0_i32_8 : BitVec 32 := 0#32
  let c8_i32 : BitVec 32 := 8#32
  let v15 : BitVec 32 := Scalar.muli c0_i32_8 c8_i32
  v15
def k0_mult3 : BitVec 32 :=
  let c0_i32_8 : BitVec 32 := 0#32
  let c1024_i32 : BitVec 32 := 1024#32
  let v17 : BitVec 32 := Scalar.muli c0_i32_8 c1024_i32
  v17
def k0_off1 (c0_i32_8 : BitVec 32) : Fin 2 → Nat :=
  let c128_i32 : BitVec 32 := 128#32
  let v13 : BitVec 32 := Scalar.muli c0_i32_8 c128_i32
  let v14 : BitVec 32 := v13
  let v19 : Index := Scalar.indexCast v14
  let c0_9 : Index := 0#32
  ![v19.toNat, 0]
def k0_off2 (c0_i32_8 : BitVec 32) : Fin 2 → Nat :=
  let c8_i32 : BitVec 32 := 8#32
  let v15 : BitVec 32 := Scalar.muli c0_i32_8 c8_i32
  let v16 : BitVec 32 := v15
  let v21 : Index := Scalar.indexCast v16
  let c0_10 : Index := 0#32
  ![v21.toNat, 0]
def k0_off3 (c0_i32_8 : BitVec 32) : Fin 2 → Nat :=
  let c1024_i32 : BitVec 32 := 1024#32
  let v17 : BitVec 32 := Scalar.muli c0_i32_8 c1024_i32
  let v18 : BitVec 32 := v17
  let v447 : Index := Scalar.indexCast v18
  let c0_210 : Index := 0#32
  ![v447.toNat, 0]
def k0_mult4 : BitVec 32 :=
  let c1_i32_211 : BitVec 32 := 1#32
  let c128_i32_212 : BitVec 32 := 128#32
  let v451 : BitVec 32 := Scalar.muli c1_i32_211 c128_i32_212
  v451
def k0_mult5 : BitVec 32 :=
  let c1_i32_211 : BitVec 32 := 1#32
  let c8_i32_213 : BitVec 32 := 8#32
  let v453 : BitVec 32 := Scalar.muli c1_i32_211 c8_i32_213
  v453
def k0_mult6 : BitVec 32 :=
  let c1_i32_211 : BitVec 32 := 1#32
  let c1024_i32_214 : BitVec 32 := 1024#32
  let v455 : BitVec 32 := Scalar.muli c1_i32_211 c1024_i32_214
  v455
def k0_mult7 : BitVec 32 :=
  let c2_i32_426 : BitVec 32 := 2#32
  let c128_i32_427 : BitVec 32 := 128#32
  let v889 : BitVec 32 := Scalar.muli c2_i32_426 c128_i32_427
  v889
def k0_mult8 : BitVec 32 :=
  let c2_i32_426 : BitVec 32 := 2#32
  let c8_i32_428 : BitVec 32 := 8#32
  let v891 : BitVec 32 := Scalar.muli c2_i32_426 c8_i32_428
  v891
def k0_mult9 : BitVec 32 :=
  let c2_i32_426 : BitVec 32 := 2#32
  let c1024_i32_429 : BitVec 32 := 1024#32
  let v893 : BitVec 32 := Scalar.muli c2_i32_426 c1024_i32_429
  v893
def k0_mult10 : BitVec 32 :=
  let c3_i32 : BitVec 32 := 3#32
  let c128_i32_641 : BitVec 32 := 128#32
  let v1327 : BitVec 32 := Scalar.muli c3_i32 c128_i32_641
  v1327
def k0_mult11 : BitVec 32 :=
  let c3_i32 : BitVec 32 := 3#32
  let c8_i32_642 : BitVec 32 := 8#32
  let v1329 : BitVec 32 := Scalar.muli c3_i32 c8_i32_642
  v1329
def k0_mult12 : BitVec 32 :=
  let c3_i32 : BitVec 32 := 3#32
  let c1024_i32_643 : BitVec 32 := 1024#32
  let v1331 : BitVec 32 := Scalar.muli c3_i32 c1024_i32_643
  v1331
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  shapeCasts_S4096_S1x4096 : S4096.ShapeCasts S1x4096
  h_S128x1024 : 0 < S128x1024.numel
  h_S8x1024 : 0 < S8x1024.numel
  shapeCasts_S128x1024_S128x1x1024 : S128x1024.ShapeCasts S128x1x1024
  concatenates_S128x1x1024_S128x1x1024_S128x1x1024_S128x1x1024_S128x1x1024_S128x1x1024_S128x1x1024_S128x1x1024_S128x8x1024_d1 : Shape.Concatenates [S128x1x1024, S128x1x1024, S128x1x1024, S128x1x1024, S128x1x1024, S128x1x1024, S128x1x1024, S128x1x1024] S128x8x1024 1
  shapeCasts_S128x8x1024_S1024x1024 : S128x8x1024.ShapeCasts S1024x1024
  shapeCasts_S1024x1024_S8x128x1024 : S1024x1024.ShapeCasts S8x128x1024
  shapeCasts_S8x1024_S8x1x1024 : S8x1024.ShapeCasts S8x1x1024
  broadcasts_S8x1x1024_S8x128x1024 : S8x1x1024.Broadcasts S8x128x1024
  shapeCasts_S8x128x1024_S1024x1024 : S8x128x1024.ShapeCasts S1024x1024
  bitsLt_bf16_f32 : FTy.bits .bf16 < FTy.bits .f32
  h_S1024x1024 : 0 < S1024x1024.numel
  shapeCasts_S1024x1024_S1024x1024 : S1024x1024.ShapeCasts S1024x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S512x4096_S4096x1024_S512x1024_1_0_0_1_n_n_wf : DotDims.WF S512x4096 S4096x1024 S512x1024 [1] [0] [0] [1] [] []
  hrank0 : 0 < grid0.rank
  k0_mult1_dvd : ∀ i : grid0.Coords, ∀ (k0_h1 : k0_cond1 i = 1#1), 128 ∣ k0_mult1.toNat
  k0_mult2_dvd : ∀ i : grid0.Coords, ∀ (k0_h1 : k0_cond1 i = 1#1), 8 ∣ k0_mult2.toNat
  k0_mult3_dvd : ∀ i : grid0.Coords, ∀ (k0_h1 : k0_cond1 i = 1#1), 1024 ∣ k0_mult3.toNat
  k0_off1_inb : ∀ i : grid0.Coords, ∀ (k0_h1 : k0_cond1 i = 1#1), ∀ (r : Fin 4), ∀ a, (k0_off1 (BitVec.ofNat 32 r.val)) a + S128x1024.size a ≤ S512x1024.size a
  k0_off2_inb : ∀ i : grid0.Coords, ∀ (k0_h1 : k0_cond1 i = 1#1), ∀ (r : Fin 4), ∀ a, (k0_off2 (BitVec.ofNat 32 r.val)) a + S8x1024.size a ≤ S32x1024.size a
  k0_off3_inb : ∀ i : grid0.Coords, ∀ (k0_h1 : k0_cond1 i = 1#1), ∀ (r : Fin 4), ∀ a, (k0_off3 (BitVec.ofNat 32 r.val)) a + S1024x1024.size a ≤ S4096x1024.size a
  k0_off3_packedbf16 : ∀ i : grid0.Coords, ∀ (k0_h1 : k0_cond1 i = 1#1), ∀ (r : Fin 4), (Rect.unit (s := S4096x1024) (k0_off3 (BitVec.ofNat 32 r.val)) S1024x1024.size (k0_off3_inb i k0_h1 r)).PackedRows (EltTy.packing .bf16)
  k0_mult4_dvd : ∀ i : grid0.Coords, ∀ (k0_h1 : k0_cond1 i = 1#1), 128 ∣ k0_mult4.toNat
  k0_mult5_dvd : ∀ i : grid0.Coords, ∀ (k0_h1 : k0_cond1 i = 1#1), 8 ∣ k0_mult5.toNat
  k0_mult6_dvd : ∀ i : grid0.Coords, ∀ (k0_h1 : k0_cond1 i = 1#1), 1024 ∣ k0_mult6.toNat
  k0_mult7_dvd : ∀ i : grid0.Coords, ∀ (k0_h1 : k0_cond1 i = 1#1), 128 ∣ k0_mult7.toNat
  k0_mult8_dvd : ∀ i : grid0.Coords, ∀ (k0_h1 : k0_cond1 i = 1#1), 8 ∣ k0_mult8.toNat
  k0_mult9_dvd : ∀ i : grid0.Coords, ∀ (k0_h1 : k0_cond1 i = 1#1), 1024 ∣ k0_mult9.toNat
  k0_mult10_dvd : ∀ i : grid0.Coords, ∀ (k0_h1 : k0_cond1 i = 1#1), 128 ∣ k0_mult10.toNat
  k0_mult11_dvd : ∀ i : grid0.Coords, ∀ (k0_h1 : k0_cond1 i = 1#1), 8 ∣ k0_mult11.toNat
  k0_mult12_dvd : ∀ i : grid0.Coords, ∀ (k0_h1 : k0_cond1 i = 1#1), 1024 ∣ k0_mult12.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .i32 = 32 ∨ (Rect.block (s := S512x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x4096.size a
  hwx0_2 : ∀ i : grid0.Coords, EltTy.bits .f32 = 32 ∨ (Rect.block (s := S32x4096) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .f32 = 32 ∨ (Rect.block (s := S8192x4096) S512x1024.size (cc0_transform_4 i) (hinb0_4 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S32x4096 : Shape := ⟨2, ![32, 4096]⟩
abbrev S4096 : Shape := ⟨1, ![4096]⟩
abbrev S512x4096 : Shape := ⟨2, ![512, 4096]⟩
abbrev S16 : Shape := ⟨1, ![16]⟩
abbrev S8192x4096 : Shape := ⟨2, ![8192, 4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S32x128x4096 : Shape := ⟨3, ![32, 128, 4096]⟩
abbrev S32x128x4096x1 : Shape := ⟨4, ![32, 128, 4096, 1]⟩
abbrev S32x1x4096 : Shape := ⟨3, ![32, 1, 4096]⟩
abbrev S4096x4096 : Shape := ⟨2, ![4096, 4096]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S32x4096, .f32⟩
  | .hbm, ⟨2, _⟩ => ⟨S4096, .f32⟩
  | .hbm, ⟨3, _⟩ => ⟨S512x4096, .i32⟩
  | .hbm, ⟨4, _⟩ => ⟨S16, .f32⟩
  | .hbm, ⟨5, _⟩ => ⟨S8192x4096, .f32⟩
  | .hbm, ⟨6, _⟩ => ⟨S512x4096, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S512x1x4096, .i32⟩
  | .hbm, ⟨15, _⟩ => ⟨S1x8x1, .i32⟩
  | .hbm, ⟨16, _⟩ => ⟨S512x8x4096, .i32⟩
  | .hbm, ⟨17, _⟩ => ⟨S512x8x4096, .i32⟩
  | .hbm, ⟨18, _⟩ => ⟨S512x8x4096, .i32⟩
  | .hbm, ⟨19, _⟩ => ⟨S_, .i32⟩
  | .hbm, ⟨20, _⟩ => ⟨S512x8x4096, .i32⟩
  | .hbm, ⟨21, _⟩ => ⟨S512x8x4096, .i32⟩
  | .hbm, ⟨22, _⟩ => ⟨S32x128x4096, .i32⟩
  | .hbm, ⟨23, _⟩ => ⟨S32x128x4096, .i32⟩
  | .hbm, ⟨24, _⟩ => ⟨S32x128x4096x1, .i32⟩
  | .hbm, ⟨25, _⟩ => ⟨S32x128x4096, .f32⟩
  | .hbm, ⟨26, _⟩ => ⟨S32x1x4096, .f32⟩
  | .hbm, ⟨27, _⟩ => ⟨S32x128x4096, .f32⟩
  | .hbm, ⟨28, _⟩ => ⟨S32x128x4096, .f32⟩
  | .hbm, ⟨29, _⟩ => ⟨S4096x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S32x128x4096 : S512x8x4096.ShapeCasts S32x128x4096
  bcast_S32x128x4096_S32x128x4096x1_0_1_2 : S32x128x4096.BroadcastsInDim S32x128x4096x1 (![0, 1, 2] : Fin 3 → Fin S32x128x4096x1.rank)
  bcast_S32x4096_S32x1x4096_0_2 : S32x4096.BroadcastsInDim S32x1x4096 (![0, 2] : Fin 2 → Fin S32x1x4096.rank)
  bcast_S32x1x4096_S32x128x4096_0_1_2 : S32x1x4096.BroadcastsInDim S32x128x4096 (![0, 1, 2] : Fin 3 → Fin S32x128x4096.rank)
  shapeCasts_S32x128x4096_S4096x4096 : S32x128x4096.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  gather_S16_S32x128x4096x1_S32x128x4096_n_0_n_n_0_3_1_wf : GatherDims.WF S16 S32x128x4096x1 S32x128x4096 [] [0] [] [0] [] 3 ![1]
  dot_S8192x4096_S4096x4096_S8192x4096_1_0_0_1_n_n_wf : DotDims.WF S8192x4096 S4096x4096 S8192x4096 [1] [0] [0] [1] [] []

variable [Facts₀]

def gather_S16_S32x128x4096x1_S32x128x4096_n_0_n_n_0_3_1 : GatherDims S16 S32x128x4096x1 S32x128x4096 where
  offsetDims := []
  collapsedSliceDims := [0]
  operandBatchingDims := []
  startIndicesBatchingDims := []
  startIndexMap := [0]
  indexVectorDim := 3
  sliceSizes := ![1]
  wf := gather_S16_S32x128x4096x1_S32x128x4096_n_0_n_n_0_3_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Assemble.lean ====
/-
  A chunk of 1024 weight rows from eight blocks of 128 looked-up rows.

  The kernel looks up the eight codes of 128 packed rows separately (eight arrays of 128 rows), stacks them along a
  new middle axis and flattens: row `r` of the 1024 is row `r / 8` of block `r % 8`.  It then regroups the 1024
  rows as 8 groups of 128, multiplies group `g = r / 128` by row `g` of the chunk's scales, and flattens again.
-/
import proofs.«402091_j15539191677564_2_alg».proof.Proof.Gen.KernelIdeal
import Idealize.ShloMosaic.Lib.ValueIdx
import Idealize.ShloMosaic.Lib.ValueLayout
import Idealize.ShloMosaic.Lib.Pipeline.Value

noncomputable section

namespace Cert.KernelIdeal.Deq

open Cert.KernelIdeal Idealize.ShloMosaic Idealize.ShloMosaic.ValueIdx

variable {F : FTy → Type} [FloatOps F]

/-- The kernel's operations from the eight looked-up blocks and the chunk's eight scale rows to the stored chunk. -/
def assemble (sc : FVec F S8x1024 .f32) (p0 p1 p2 p3 p4 p5 p6 p7 : FVec F S128x1024 .f32) : FVec F S1024x1024 .bf16 :=
  shapeCast S1024x1024
    (truncf .bf16
      (shapeCast S1024x1024
        (mulf
          (shapeCast S8x128x1024
            (shapeCast S1024x1024
              (concatenate S128x8x1024 1
                [⟨S128x1x1024, shapeCast S128x1x1024 p0 (by decide)⟩, ⟨S128x1x1024, shapeCast S128x1x1024 p1 (by decide)⟩,
                 ⟨S128x1x1024, shapeCast S128x1x1024 p2 (by decide)⟩, ⟨S128x1x1024, shapeCast S128x1x1024 p3 (by decide)⟩,
                 ⟨S128x1x1024, shapeCast S128x1x1024 p4 (by decide)⟩, ⟨S128x1x1024, shapeCast S128x1x1024 p5 (by decide)⟩,
                 ⟨S128x1x1024, shapeCast S128x1x1024 p6 (by decide)⟩, ⟨S128x1x1024, shapeCast S128x1x1024 p7 (by decide)⟩]
                Cert.KernelIdeal.Gen.concatenates_S128x1x1024_S128x1x1024_S128x1x1024_S128x1x1024_S128x1x1024_S128x1x1024_S128x1x1024_S128x1x1024_S128x8x1024_d1)
              (by decide))
            (by decide))
          (broadcastTo S8x128x1024 (shapeCast S8x1x1024 sc (by decide)) (by decide)))
        (by decide))
      (by decide))
    (by decide)

/-- Entry `(r, q)` of the chunk: block `r % 8` at row `r / 8`, times scale row `r / 128`. -/
theorem assemble_apply (sc : FVec Ideal S8x1024 .f32) (p : Fin 8 → FVec Ideal S128x1024 .f32) (r q : Fin 1024) :
    assemble sc (p 0) (p 1) (p 2) (p 3) (p 4) (p 5) (p 6) (p 7) (ix2 r q)
      = p ⟨r.val % 8, Nat.mod_lt _ (by decide)⟩ (ix2 ⟨r.val / 8, by omega⟩ q) * sc (ix2 ⟨r.val / 128, by omega⟩ q) := by
  have hr : r.val < 1024 := r.isLt
  have hq : q.val < 1024 := q.isLt
  unfold assemble
  -- the outer same-shape cast and the change of format are the identity
  rw [shapeCast_self, truncf_apply]
  -- 8x128x1024 flattened to 1024x1024: position (r, q) is (r / 128, r % 128, q)
  refine (shapeCast_apply _ _ (ix2 r q)
    (ix3 (⟨r.val / 128, by omega⟩ : Fin 8) (⟨r.val % 128, Nat.mod_lt _ (by decide)⟩ : Fin 128) q) ?_).trans ?_
  · rw [Shape.rowMajor_val_three, Shape.rowMajor_val_two]
    show (r.val / 128 * 128 + r.val % 128) * 1024 + q.val = r.val * 1024 + q.val
    omega
  rw [mulf_apply]
  congr 1
  · -- 1024x1024 regrouped as 8x128x1024: back to (r, q)
    refine (shapeCast_apply _ _ _ (ix2 r q) ?_).trans ?_
    · rw [Shape.rowMajor_val_three, Shape.rowMajor_val_two]
      show r.val * 1024 + q.val = (r.val / 128 * 128 + r.val % 128) * 1024 + q.val
      omega
    -- 128x8x1024 flattened to 1024x1024: position (r, q) is (r / 8, r % 8, q)
    refine (shapeCast_apply _ _ _
      (ix3 (⟨r.val / 8, by omega⟩ : Fin 128) (⟨r.val % 8, Nat.mod_lt _ (by decide)⟩ : Fin 8) q) ?_).trans ?_
    · rw [Shape.rowMajor_val_three, Shape.rowMajor_val_two]
      show (r.val / 8 * 8 + r.val % 8) * 1024 + q.val = r.val * 1024 + q.val
      omega
    -- the stack of eight unit-extent pieces along the middle axis: piece r % 8
    refine (concatenate_ofFn_unit_apply (t := S128x8x1024) (s₁ := S128x1x1024) (1 : Fin 3)
      (fun n : Fin 8 => shapeCast S128x1x1024 (p n) (by decide)) _ rfl rfl _
      (⟨r.val % 8, Nat.mod_lt _ (by decide)⟩ : Fin 8) rfl
      (ix3 (⟨r.val / 8, by omega⟩ : Fin 128) (0 : Fin 1) q) ?_).trans ?_
    · intro b hb
      match b with
      | ⟨0, _⟩ => rfl
      | ⟨1, _⟩ => exact absurd rfl hb
      | ⟨2, _⟩ => rfl
    -- the unit middle axis put in: (r / 8, 0, q) is (r / 8, q)
    refine shapeCast_apply _ _ _ _ ?_
    rw [Shape.rowMajor_val_three, Shape.rowMajor_val_two]
    show r.val / 8 * 1024 + q.val = (r.val / 8 * 1 + 0) * 1024 + q.val
    omega
  · -- the scale rows broadcast over the 128 rows of each group
    refine (broadcastTo_apply _ _ _ (ix3 (⟨r.val / 128, by omega⟩ : Fin 8) (0 : Fin 1) q) ?_).trans ?_
    · intro a
      match a with
      | ⟨0, _⟩ => rfl
      | ⟨1, _⟩ => rfl
      | ⟨2, _⟩ => rfl
    refine shapeCast_apply _ _ _ _ ?_
    rw [Shape.rowMajor_val_three, Shape.rowMajor_val_two]
    show r.val / 128 * 1024 + q.val = (r.val / 128 * 1 + 0) * 1024 + q.val
    omega

end Cert.KernelIdeal.Deq

end
-- ==== Proof.Spec.lean ====
/-
  The function both programs compute, stated once, over literal shapes and the extended reals.

  A packed word of the quantised weight holds eight 4-bit codes; code `s` of word `w` is `(w >>> 4s) &&& 15`.
  A code selects one of sixteen fixed levels.  Row `k` of the dequantised weight (4096 rows) takes code `k % 8` of
  packed row `k / 8` and is scaled by the scale of its group of 128 rows, `k / 128`:
      weight k j = level (code (k % 8) of qw[k / 8, j]) * scale[k / 128, j].
  The result is the product of the activations (flattened to 8192 rows) with that weight, plus the bias:
      linear r j = (∑ k, x[r, k] * weight k j) + bias[j].
-/
import Idealize.ShloMosaic.PureOps.Ideal
import Idealize.ShloMosaic.Lib.ValueIdx

noncomputable section

namespace Cert.QLin

open Idealize.ShloMosaic Idealize.ShloMosaic.ValueIdx

/-- The sixteen levels' words, by code. -/
def levelWord : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- The level a code word selects: the table at the word's value (a code is below 16; the definition reads it
    modulo 16 so that it is total). -/
def level (c : BitVec 32) : EReal :=
  Ideal.ofBits .f32 (levelWord ⟨c.toNat % 16, Nat.mod_lt _ (by decide)⟩)

/-- Code `s` of a packed word: its bits `4s … 4s+3`. -/
def nibble (w : BitVec 32) (s : Nat) : BitVec 32 := (w >>> (4 * s)) &&& 15#32

/-- The dequantised weight at row `k`, column `j`, of ANY packed array of `R` rows and scale array of `G` rows
    and `C` columns that has those rows (the whole arrays: 512 / 32 / 4096; one column block: 512 / 32 / 1024). -/
def weightAt {R G C : Nat} (qw : (⟨2, ![R, C]⟩ : Shape).Idx → BitVec 32) (sc : (⟨2, ![G, C]⟩ : Shape).Idx → EReal)
    (k8 : Fin R) (s : Nat) (g : Fin G) (j : Fin C) : EReal :=
  level (nibble (qw (ix2 k8 j)) s) * sc (ix2 g j)

/-- Row `k` of 4096: packed row `k / 8`, code `k % 8`, group `k / 128`. -/
def weight {C : Nat} (qw : (⟨2, ![512, C]⟩ : Shape).Idx → BitVec 32) (sc : (⟨2, ![32, C]⟩ : Shape).Idx → EReal)
    (k : Fin 4096) (j : Fin C) : EReal :=
  weightAt qw sc ⟨k.val / 8, by omega⟩ (k.val % 8) ⟨k.val / 128, by omega⟩ j

/-- The weight as an array of 4096 rows. -/
def weightArr {C : Nat} (qw : (⟨2, ![512, C]⟩ : Shape).Idx → BitVec 32) (sc : (⟨2, ![32, C]⟩ : Shape).Idx → EReal) :
    (⟨2, ![4096, C]⟩ : Shape).Idx → EReal :=
  fun y => weight qw sc (y 0) (y 1)

/-- Activations of `M` rows times a weight array of `C` columns, plus a one-row bias: entry `(r, j)`. -/
def affineAt {M C : Nat} (X : (⟨2, ![M, 4096]⟩ : Shape).Idx → EReal) (W : (⟨2, ![4096, C]⟩ : Shape).Idx → EReal)
    (b : (⟨2, ![1, C]⟩ : Shape).Idx → EReal) (r : Fin M) (j : Fin C) : EReal :=
  (∑ k : Fin 4096, X (ix2 r k) * W (ix2 k j)) + b (ix2 0 j)

/-- The same as an array. -/
def affine {M C : Nat} (X : (⟨2, ![M, 4096]⟩ : Shape).Idx → EReal) (W : (⟨2, ![4096, C]⟩ : Shape).Idx → EReal)
    (b : (⟨2, ![1, C]⟩ : Shape).Idx → EReal) : (⟨2, ![M, C]⟩ : Shape).Idx → EReal :=
  fun y => affineAt X W b (y 0) (y 1)

/-- A bias vector as the one-row matrix both programs add. -/
def biasRow {C : Nat} (b : (⟨1, ![C]⟩ : Shape).Idx → EReal) : (⟨2, ![1, C]⟩ : Shape).Idx → EReal :=
  fun y => b (ix1 (y 1))

/-- THE RESULT as a matrix of 8192 rows: the flattened activations times the dequantised weight, plus the bias
    (given as one row). -/
def linear (X : (⟨2, ![8192, 4096]⟩ : Shape).Idx → EReal) (sc : (⟨2, ![32, 4096]⟩ : Shape).Idx → EReal)
    (b : (⟨2, ![1, 4096]⟩ : Shape).Idx → EReal) (qw : (⟨2, ![512, 4096]⟩ : Shape).Idx → BitVec 32) :
    (⟨2, ![8192, 4096]⟩ : Shape).Idx → EReal :=
  affine X (weightArr qw sc) b

theorem weightArr_apply {C : Nat} (qw : (⟨2, ![512, C]⟩ : Shape).Idx → BitVec 32) (sc : (⟨2, ![32, C]⟩ : Shape).Idx → EReal)
    (k : Fin 4096) (j : Fin C) : weightArr qw sc (ix2 k j) = weight qw sc k j := rfl

theorem affine_apply {M C : Nat} (X : (⟨2, ![M, 4096]⟩ : Shape).Idx → EReal) (W : (⟨2, ![4096, C]⟩ : Shape).Idx → EReal)
    (b : (⟨2, ![1, C]⟩ : Shape).Idx → EReal) (r : Fin M) (j : Fin C) : affine X W b (ix2 r j) = affineAt X W b r j := rfl

theorem linear_apply (X : (⟨2, ![8192, 4096]⟩ : Shape).Idx → EReal) (sc : (⟨2, ![32, 4096]⟩ : Shape).Idx → EReal)
    (b : (⟨2, ![1, 4096]⟩ : Shape).Idx → EReal) (qw : (⟨2, ![512, 4096]⟩ : Shape).Idx → BitVec 32) (r : Fin 8192) (j : Fin 4096) :
    linear X sc b qw (ix2 r j) = (∑ k : Fin 4096, X (ix2 r k) * weight qw sc k j) + b (ix2 0 j) := rfl

end Cert.QLin

end
-- ==== Proof.Lookup.lean ====
/-
  The kernel's level lookup, as a function of one word.

  The kernel does not index a table: it tests the four bits of a code and picks a level through a binary tree of
  fifteen selects (bit 0 chooses inside each adjacent pair of levels, bit 1 between pairs, bit 2 between fours,
  bit 3 between the two halves).  For a code below sixteen that tree returns the table's entry at the code: the
  sixteen cases are checked one by one.
-/
import proofs.«402091_j15539191677564_2_alg».proof.Proof.Spec

noncomputable section

namespace Cert.QLin

open Idealize.ShloMosaic

variable {F : FTy → Type} [FloatOps F]

/-- Whether a code has a bit of the mask `m` set, as a one-bit word. -/
def hasBit (c m : BitVec 32) : BitVec 1 := IntOp.cmpi .ne (IntOp.andi c m) 0#32

/-- The tree of selects over the four bits of a code. -/
def selectTree (c : BitVec 32) : F .f32 :=
  Scalar.select (hasBit c 8#32)
    (Scalar.select (hasBit c 4#32)
      (Scalar.select (hasBit c 2#32)
        (Scalar.select (hasBit c 1#32) (Scalar.ofBits .f32 0x3F800000#32) (Scalar.ofBits .f32 0x3F3913B3#32))
        (Scalar.select (hasBit c 1#32) (Scalar.ofBits .f32 0x3F1007AB#32) (Scalar.ofBits .f32 0x3EE1A4B8#32)))
      (Scalar.select (hasBit c 2#32)
        (Scalar.select (hasBit c 1#32) (Scalar.ofBits .f32 0x3EAD033A#32) (Scalar.ofBits .f32 0x3E7C04DD#32))
        (Scalar.select (hasBit c 1#32) (Scalar.ofBits .f32 0x3E24CAE3#32) (Scalar.ofBits .f32 0x3DA2FAFF#32))))
    (Scalar.select (hasBit c 4#32)
      (Scalar.select (hasBit c 2#32)
        (Scalar.select (hasBit c 1#32) (Scalar.ofBits .f32 0x00000000#32) (Scalar.ofBits .f32 0xBDBA7871#32))
        (Scalar.select (hasBit c 1#32) (Scalar.ofBits .f32 0xBE3D353F#32) (Scalar.ofBits .f32 0xBE91A24D#32)))
      (Scalar.select (hasBit c 2#32)
        (Scalar.select (hasBit c 1#32) (Scalar.ofBits .f32 0xBECA32A0#32) (Scalar.ofBits .f32 0xBF066B30#32))
        (Scalar.select (hasBit c 1#32) (Scalar.ofBits .f32 0xBF3239B1#32) (Scalar.ofBits .f32 0xBF800000#32))))

/-- The kernel's lookup of the code at shift `sh` of a packed word: shift, mask to four bits, select. -/
def lookup (w sh : BitVec 32) : F .f32 :=
  selectTree (IntOp.andi (IntOp.shrui .vector w sh) 15#32)

/-- On a code below sixteen the tree of selects is the table. -/
theorem selectTree_eq_level (c : BitVec 32) (h : c.toNat < 16) : selectTree (F := Ideal) c = level c := by
  have hc : c = BitVec.ofNat 32 c.toNat := (by simp)
  generalize c.toNat = n at h hc
  subst hc
  interval_cases n <;>
    simp [selectTree, hasBit, IntOp.cmpi, IntOp.andi, Scalar.select, level, levelWord]

/-- The kernel's lookup at shift `4s` is the level of code `s` of the word. -/
theorem lookup_eq_level (w : BitVec 32) (s : Nat) (hs : s < 8) :
    lookup (F := Ideal) w (BitVec.ofNat 32 (4 * s)) = level (nibble w s) := by
  have hsh : (BitVec.ofNat 32 (4 * s)).toNat = 4 * s := by
    rw [BitVec.toNat_ofNat]; exact Nat.mod_eq_of_lt (by omega)
  have e : IntOp.andi (IntOp.shrui .vector w (BitVec.ofNat 32 (4 * s))) 15#32 = nibble w s := by
    unfold IntOp.andi IntOp.shrui nibble
    rw [if_pos (by rw [hsh]; omega)]
    show (w >>> (BitVec.ofNat 32 (4 * s)).toNat) &&& 15#32 = _
    rw [hsh]
  unfold lookup
  rw [e]
  refine selectTree_eq_level _ ?_
  unfold nibble
  rw [BitVec.toNat_and]
  exact lt_of_le_of_lt Nat.and_le_right (by decide)

end Cert.QLin

end
-- ==== Proof.Chunks.lean ====
/-
  The cached weight the kernel builds at the first row-block of each column block.

  The kernel fills its cache of 4096 weight rows in four chunks of 1024.  For chunk `k` it loads 128 packed rows
  (rows `128k …` of the packed block) and eight scale rows (rows `8k …`), looks up each of the eight codes of every
  packed word, interleaves the eight results so that weight row `r` of the chunk is code `r % 8` of packed row `r / 8`,
  and scales row `r` by scale row `r / 128`.  Row `1024k + r` of the cache is therefore the specification's weight row
  `1024k + r` of the block: packed row `(1024k + r) / 8 = 128k + r / 8`, code `(1024k + r) % 8 = r % 8`, group
  `(1024k + r) / 128 = 8k + r / 128`.
-/
import proofs.«402091_j15539191677564_2_alg».proof.Proof.Gen.KernelIdeal.Frame
import proofs.«402091_j15539191677564_2_alg».proof.Proof.Assemble
import proofs.«402091_j15539191677564_2_alg».proof.Proof.Lookup
import Idealize.ShloMosaic.Lib.Pipeline.Value
import Idealize.ShloMosaic.Lib.ValueIdx

set_option maxRecDepth 16384

noncomputable section

namespace Cert.KernelIdeal.Deq

open Cert.KernelIdeal Cert.KernelIdeal.Gen Cert.QLin
open Idealize.ShloMosaic Idealize.ShloMosaic.TcCoe Idealize.ShloMosaic.ValueIdx Idealize.SL.Sem

section Pieces

variable {F : FTy → Type} [FloatOps F]
variable (c : Dev nD) (i : grid0.Coords)
  (arg3 : Memref sig .tc .vmem S512x1024 .i32) (harg3 : arg3.IsWhole)
  (arg4 : Memref sig .tc .vmem S32x1024 .f32) (harg4 : arg4.IsWhole)
  (x1 : Vec F S512x1024 .i32) (x2 : Vec F S32x1024 .f32)

/-- The 128 packed rows chunk `k` loads. -/
abbrev packedRows (k : Nat) (h : ∀ a, (![128 * k, 0] : Fin 2 → Nat) a + S128x1024.size a ≤ S512x1024.size a) :
    Vec F S128x1024 .i32 :=
  View.readAt (Elt F) arg3.view (Rect.unit (s := S512x1024) ![128 * k, 0] S128x1024.size h).toLoadRect (harg3.unread x1)

/-- The eight scale rows chunk `k` loads. -/
abbrev scaleRows (k : Nat) (h : ∀ a, (![8 * k, 0] : Fin 2 → Nat) a + S8x1024.size a ≤ S32x1024.size a) :
    Vec F S8x1024 .f32 :=
  View.readAt (Elt F) arg4.view (Rect.unit (s := S32x1024) ![8 * k, 0] S8x1024.size h).toLoadRect (harg4.unread x2)

/-- A chunk from its loaded rows: the eight codes of every packed word looked up, interleaved, scaled. -/
def chunkOf (qw : Vec F S128x1024 .i32) (sc : Vec F S8x1024 .f32) : FVec F S1024x1024 .bf16 :=
  assemble sc (fun j => lookup (qw j) 0#32) (fun j => lookup (qw j) 4#32) (fun j => lookup (qw j) 8#32)
    (fun j => lookup (qw j) 12#32) (fun j => lookup (qw j) 16#32) (fun j => lookup (qw j) 20#32)
    (fun j => lookup (qw j) 24#32) (fun j => lookup (qw j) 28#32)

/-- Each of the four stored chunks is `chunkOf` its loaded rows: the stored values are those operations of the
    loads, however the body's text groups them. -/
theorem piece0_eq (hc0 : cond0_0 i) :
    k0_pay77 (kernelRun0_A.sl.r_1 c i arg4 harg4 hc0 x2) (kernelRun0_A.sl.r_8 c i arg3 harg3 hc0 x1) (kernelRun0_A.sl.r_13 c i arg3 harg3 hc0 x1) (kernelRun0_A.sl.r_27 c i arg3 harg3 hc0 x1) (kernelRun0_A.sl.r_36 c i arg3 harg3 hc0 x1) (kernelRun0_A.sl.r_42 c i arg3 harg3 hc0 x1) (kernelRun0_A.sl.r_46 c i arg3 harg3 hc0 x1) (kernelRun0_A.sl.r_57 c i arg3 harg3 hc0 x1) (kernelRun0_A.sl.r_58 c i arg3 harg3 hc0 x1) (kernelRun0_A.sl.r_59 c i arg3 harg3 hc0 x1) (kernelRun0_A.sl.r_60 c i arg3 harg3 hc0 x1) (kernelRun0_A.sl.r_61 c i arg3 harg3 hc0 x1) (kernelRun0_A.sl.r_62 c i arg3 harg3 hc0 x1) (kernelRun0_A.sl.r_63 c i arg3 harg3 hc0 x1) (kernelRun0_A.sl.r_64 c i arg3 harg3 hc0 x1)
      = chunkOf (packedRows arg3 harg3 x1 0 (by decide)) (scaleRows arg4 harg4 x2 0 (by decide)) := rfl

theorem piece1_eq (hc0 : cond0_0 i) :
    k0_pay154 (kernelRun0_A.sl.r_66 c i arg4 harg4 hc0 x2) (kernelRun0_A.sl.r_75 c i arg3 harg3 hc0 x1) (kernelRun0_A.sl.r_80 c i arg3 harg3 hc0 x1) (kernelRun0_A.sl.r_87 c i arg3 harg3 hc0 x1) (kernelRun0_A.sl.r_97 c i arg3 harg3 hc0 x1) (kernelRun0_A.sl.r_104 c i arg3 harg3 hc0 x1) (kernelRun0_A.sl.r_109 c i arg3 harg3 hc0 x1) (kernelRun0_A.sl.r_122 c i arg3 harg3 hc0 x1) (kernelRun0_A.sl.r_123 c i arg3 harg3 hc0 x1) (kernelRun0_A.sl.r_124 c i arg3 harg3 hc0 x1) (kernelRun0_A.sl.r_125 c i arg3 harg3 hc0 x1) (kernelRun0_A.sl.r_126 c i arg3 harg3 hc0 x1) (kernelRun0_A.sl.r_127 c i arg3 harg3 hc0 x1) (kernelRun0_A.sl.r_128 c i arg3 harg3 hc0 x1) (kernelRun0_A.sl.r_129 c i arg3 harg3 hc0 x1) (kernelRun0_A.sl.r_130 c i arg3 harg3 hc0 x1) kernelRun0_A.sl.cst_417
      = chunkOf (packedRows arg3 harg3 x1 1 (by decide)) (scaleRows arg4 harg4 x2 1 (by decide)) := rfl

theorem piece2_eq (hc0 : cond0_0 i) :
    k0_pay232 (kernelRun0_A.sl.r_132 c i arg4 harg4 hc0 x2) (kernelRun0_A.sl.r_142 c i arg3 harg3 hc0 x1) (kernelRun0_A.sl.r_148 c i arg3 harg3 hc0 x1) (kernelRun0_A.sl.r_153 c i arg3 harg3 hc0 x1) (kernelRun0_A.sl.r_166 c i arg3 harg3 hc0 x1) (kernelRun0_A.sl.r_174 c i arg3 harg3 hc0 x1) (kernelRun0_A.sl.r_179 c i arg3 harg3 hc0 x1) (kernelRun0_A.sl.r_188 c i arg3 harg3 hc0 x1) (kernelRun0_A.sl.r_189 c i arg3 harg3 hc0 x1) (kernelRun0_A.sl.r_190 c i arg3 harg3 hc0 x1) (kernelRun0_A.sl.r_191 c i arg3 harg3 hc0 x1) (kernelRun0_A.sl.r_192 c i arg3 harg3 hc0 x1) (kernelRun0_A.sl.r_193 c i arg3 harg3 hc0 x1) (kernelRun0_A.sl.r_194 c i arg3 harg3 hc0 x1) (kernelRun0_A.sl.r_195 c i arg3 harg3 hc0 x1) (kernelRun0_A.sl.r_196 c i arg3 harg3 hc0 x1) (kernelRun0_A.sl.r_197 c i arg3 harg3 hc0 x1) kernelRun0_A.sl.cst_452 kernelRun0_A.sl.cst_635
      = chunkOf (packedRows arg3 harg3 x1 2 (by decide)) (scaleRows arg4 harg4 x2 2 (by decide)) := rfl

theorem piece3_eq (hc0 : cond0_0 i) :
    k0_pay1 (kernelRun0_A.sl.r_199 c i arg4 harg4 hc0 x2) (kernelRun0_A.sl.r_236 c i arg3 harg3 hc0 x1) (kernelRun0_A.sl.r_245 c i arg3 harg3 hc0 x1) (kernelRun0_A.sl.r_251 c i arg3 harg3 hc0 x1) (kernelRun0_A.sl.r_255 c i arg3 harg3 hc0 x1) (kernelRun0_A.sl.r_267 c i arg3 harg3 hc0 x1) (kernelRun0_A.sl.r_268 c i arg3 harg3 hc0 x1) (kernelRun0_A.sl.r_269 c i arg3 harg3 hc0 x1) (kernelRun0_A.sl.r_270 c i arg3 harg3 hc0 x1)
      = chunkOf (packedRows arg3 harg3 x1 3 (by decide)) (scaleRows arg4 harg4 x2 3 (by decide)) := rfl

end Pieces

/-- Entry `(r, q)` of a chunk on the extended reals: the level of code `r % 8` of packed row `r / 8`, times scale
    row `r / 128`. -/
theorem chunkOf_apply (qw : Vec Ideal S128x1024 .i32) (sc : Vec Ideal S8x1024 .f32) (r q : Fin 1024) :
    chunkOf qw sc (ix2 r q)
      = level (nibble (qw (ix2 ⟨r.val / 8, by omega⟩ q)) (r.val % 8)) * sc (ix2 ⟨r.val / 128, by omega⟩ q) := by
  have h := assemble_apply sc (fun (s : Fin 8) j => lookup (qw j) (BitVec.ofNat 32 (4 * s.val))) r q
  refine Eq.trans h ?_
  show lookup (qw (ix2 ⟨r.val / 8, _⟩ q)) (BitVec.ofNat 32 (4 * (r.val % 8))) * _ = _
  rw [lookup_eq_level _ _ (Nat.mod_lt _ (by decide))]

end Cert.KernelIdeal.Deq

end
-- ==== Proof.MatmulPay.lean ====
/-
  The kernel's last payload at an index: the product of the activation block with the cached weight, plus the bias
  row.  Into a zero accumulator the matrix unit's product is the plain sum over the 4096 contracted rows; the change
  of format of the activations is the identity on the extended reals.
-/
import proofs.«402091_j15539191677564_2_alg».proof.Proof.Gen.KernelIdeal.Skeleton
import proofs.«402091_j15539191677564_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Deq

open Cert.KernelIdeal Cert.KernelIdeal.Gen Idealize.ShloMosaic Idealize.ShloMosaic.ValueIdx

/-! ## The operand indices of the product, axis by axis

At output index `j` and contraction position `k` the left operand is read at `(j 0, k)` and the right one at
`(k, j 1)`. -/

/-- Left operand, row axis: the output's row. -/
theorem lhs_pay_0 (j : S512x1024.Idx) (k : dot_S512x4096_S4096x1024_S512x1024_1_0_0_1_n_n.contr.Idx) :
    (dot_S512x4096_S4096x1024_S512x1024_1_0_0_1_n_n.lhsIdx j k 0 : ℕ) = j 0 := by
  simp [DotDims.lhsIdx, dot_S512x4096_S4096x1024_S512x1024_1_0_0_1_n_n]; rfl
/-- Left operand, column axis: the contraction position. -/
theorem lhs_pay_1 (j : S512x1024.Idx) (k : dot_S512x4096_S4096x1024_S512x1024_1_0_0_1_n_n.contr.Idx) :
    (dot_S512x4096_S4096x1024_S512x1024_1_0_0_1_n_n.lhsIdx j k 1 : ℕ) = k ⟨0, by decide⟩ := by
  simp [DotDims.lhsIdx, dot_S512x4096_S4096x1024_S512x1024_1_0_0_1_n_n]; rfl
/-- Right operand, row axis: the contraction position. -/
theorem rhs_pay_0 (j : S512x1024.Idx) (k : dot_S512x4096_S4096x1024_S512x1024_1_0_0_1_n_n.contr.Idx) :
    (dot_S512x4096_S4096x1024_S512x1024_1_0_0_1_n_n.rhsIdx j k 0 : ℕ) = k ⟨0, by decide⟩ := by
  simp [DotDims.rhsIdx, dot_S512x4096_S4096x1024_S512x1024_1_0_0_1_n_n]; rfl
/-- Right operand, column axis: the output's column. -/
theorem rhs_pay_1 (j : S512x1024.Idx) (k : dot_S512x4096_S4096x1024_S512x1024_1_0_0_1_n_n.contr.Idx) :
    (dot_S512x4096_S4096x1024_S512x1024_1_0_0_1_n_n.rhsIdx j k 1 : ℕ) = j 1 := by
  simp [DotDims.rhsIdx, dot_S512x4096_S4096x1024_S512x1024_1_0_0_1_n_n]; rfl

/-- The product into the zero accumulator, at `(p, q)`: the sum over the 4096 contracted rows. -/
theorem matmul_pay_apply (x : FVec Ideal S512x4096 .bf16) (w : FVec Ideal S4096x1024 .bf16) (p : Fin 512) (q : Fin 1024) :
    matmul dot_S512x4096_S4096x1024_S512x1024_1_0_0_1_n_n none x w (constant (F := Ideal) S512x1024 .f32 0x00000000#32) (ix2 p q)
      = ∑ k : Fin 4096, x (ix2 p k) * w (ix2 k q) := by
  simp only [matmul]
  rw [Ideal.matmul_constant_zero_apply]
  refine (Equiv.sum_comp (contrEquiv1 dot_S512x4096_S4096x1024_S512x1024_1_0_0_1_n_n 4096 rfl rfl).symm _).symm.trans ?_
  refine Finset.sum_congr rfl fun k _ => ?_
  have hk := contrEquiv1_symm_val dot_S512x4096_S4096x1024_S512x1024_1_0_0_1_n_n 4096 rfl rfl k
  have hl : dot_S512x4096_S4096x1024_S512x1024_1_0_0_1_n_n.lhsIdx (ix2 p q)
      ((contrEquiv1 dot_S512x4096_S4096x1024_S512x1024_1_0_0_1_n_n 4096 rfl rfl).symm k) = ix2 p k := by
    funext a
    refine Fin.ext ?_
    match a with
    | ⟨0, _⟩ => exact lhs_pay_0 _ _
    | ⟨1, _⟩ => exact (lhs_pay_1 _ _).trans hk
  have hr : dot_S512x4096_S4096x1024_S512x1024_1_0_0_1_n_n.rhsIdx (ix2 p q)
      ((contrEquiv1 dot_S512x4096_S4096x1024_S512x1024_1_0_0_1_n_n 4096 rfl rfl).symm k) = ix2 k q := by
    funext a
    refine Fin.ext ?_
    match a with
    | ⟨0, _⟩ => exact (rhs_pay_0 _ _).trans hk
    | ⟨1, _⟩ => exact rhs_pay_1 _ _
  rw [hl, hr]

/-- The output block's payload is the affine map of the spec: `x · w + b`, entry by entry. -/
theorem pay2_eq (v3 : Vec Ideal S512x4096 .f32) (v6 : Vec Ideal S4096x1024 .bf16) (v8 : Vec Ideal S1x1024 .f32) :
    k0_pay2 (F := Ideal) v3 v6 v8 = Cert.QLin.affine v3 v6 v8 := by
  funext y
  obtain ⟨p, q, rfl⟩ : ∃ (p : Fin 512) (q : Fin 1024), y = ix2 p q := ⟨y 0, y 1, eq_ix2 y⟩
  unfold k0_pay2
  rw [addf_apply, matmul_pay_apply, shapeCast_self, shapeCast_self, broadcastTo_1b_ab_apply]
  rfl

end Cert.KernelIdeal.Deq

end
-- ==== Proof.Blocks.lean ====
/-
  What one run of the kernel body leaves behind, as functions of the blocks it was given.

  At the first row-block of a column block the body rebuilds its cache of 4096 weight rows from the packed block and
  the scale block: the cache then holds the specification's weight array of those two blocks.  At every point the
  output block is the activation block times the cache, plus the bias row — with the cache just rebuilt in the first
  case, and as the point before left it in the other.
-/
import proofs.«402091_j15539191677564_2_alg».proof.Proof.Chunks
import proofs.«402091_j15539191677564_2_alg».proof.Proof.MatmulPay

set_option maxRecDepth 16384

noncomputable section

namespace Cert.KernelIdeal.Deq

open Cert.KernelIdeal Cert.KernelIdeal.Gen Cert.QLin
open Idealize.ShloMosaic Idealize.ShloMosaic.TcCoe Idealize.ShloMosaic.ValueIdx Idealize.SL.Sem

variable (c : Dev nD) (i : grid0.Coords)
  (arg2 : Memref sig .tc .vmem S512x4096 .f32) (harg2 : arg2.IsWhole)
  (arg3 : Memref sig .tc .vmem S512x1024 .i32) (harg3 : arg3.IsWhole)
  (arg4 : Memref sig .tc .vmem S32x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S4096x1024 .bf16) (harg7 : arg7.IsWhole)
  (x0 : Vec Ideal S512x4096 .f32) (x1 : Vec Ideal S512x1024 .i32) (x2 : Vec Ideal S32x1024 .f32)
  (x3 : Vec Ideal S1x1024 .f32) (xs0 : Vec Ideal S4096x1024 .bf16)

theorem zeroOff : (![0, 0] : Fin 2 → Nat) = fun _ => 0 := funext fun a => by fin_cases a <;> rfl

/-- The packed rows chunk `k` loads are rows `128k …` of the packed block. -/
theorem packedRows_apply (k : Nat) (hk : k < 4) (h) (a : Fin 128) (b : Fin 1024) :
    packedRows arg3 harg3 x1 k h (ix2 a b) = x1 (ix2 ⟨128 * k + a.val, by omega⟩ b) := by
  unfold packedRows
  rw [View.readAt_eq_ld, harg3.read_unread]
  refine congrArg x1 (funext fun d => Fin.ext ?_)
  match d with
  | ⟨0, _⟩ => show 128 * k + 1 * a.val = 128 * k + a.val; omega
  | ⟨1, _⟩ => show 0 + 1 * b.val = b.val; omega

/-- The scale rows chunk `k` loads are rows `8k …` of the scale block. -/
theorem scaleRows_apply (k : Nat) (hk : k < 4) (h) (a : Fin 8) (b : Fin 1024) :
    scaleRows arg4 harg4 x2 k h (ix2 a b) = x2 (ix2 ⟨8 * k + a.val, by omega⟩ b) := by
  unfold scaleRows
  rw [View.readAt_eq_ld, harg4.read_unread]
  refine congrArg x2 (funext fun d => Fin.ext ?_)
  match d with
  | ⟨0, _⟩ => show 8 * k + 1 * a.val = 8 * k + a.val; omega
  | ⟨1, _⟩ => show 0 + 1 * b.val = b.val; omega

/-- Row `1024k + r` of the specification's weight array of the two blocks, spelled by the chunk's own rows. -/
theorem weightArr_chunk (k : Nat) (hk : k < 4) (r q : Fin 1024) (y : S4096x1024.Idx)
    (h0 : (y 0).val = 1024 * k + r.val) (h1 : (y 1).val = q.val) :
    weightArr x1 x2 y
      = level (nibble (x1 (ix2 ⟨128 * k + r.val / 8, by omega⟩ q)) (r.val % 8)) * x2 (ix2 ⟨8 * k + r.val / 128, by omega⟩ q) := by
  have e1 : (y 1 : Fin 1024) = q := Fin.ext h1
  unfold weightArr weight weightAt
  rw [e1]
  have a0 : (⟨(y 0).val / 8, by have := (y 0).isLt; omega⟩ : Fin 512) = ⟨128 * k + r.val / 8, by omega⟩ := Fin.ext (by
    show (y 0).val / 8 = 128 * k + r.val / 8; omega)
  have a1 : (⟨(y 0).val / 128, by have := (y 0).isLt; omega⟩ : Fin 32) = ⟨8 * k + r.val / 128, by omega⟩ := Fin.ext (by
    show (y 0).val / 128 = 8 * k + r.val / 128; omega)
  have a2 : (y 0).val % 8 = r.val % 8 := by omega
  rw [a0, a1, a2]

/-- Chunk `k` is rows `1024k …` of that weight array. -/
theorem chunk_is_rows (k : Nat) (hk : k < 4) (inb hq hs)
    (x : (Rect.unit (s := S4096x1024) ![1024 * k, 0] S1024x1024.size inb).shape.Idx) :
    chunkOf (packedRows arg3 harg3 x1 k hq) (scaleRows arg4 harg4 x2 k hs) x
      = weightArr x1 x2 ((Rect.unit (s := S4096x1024) ![1024 * k, 0] S1024x1024.size inb).emb x) := by
  obtain ⟨r, q, rfl⟩ : ∃ (r q : Fin 1024), x = ix2 r q := ⟨x 0, x 1, eq_ix2 x⟩
  rw [chunkOf_apply, packedRows_apply (hk := hk), scaleRows_apply (hk := hk)]
  refine (weightArr_chunk x1 x2 k hk r q _ ?_ ?_).symm
  · show 1024 * k + 1 * r.val = 1024 * k + r.val; omega
  · show 0 + 1 * q.val = q.val; omega

/-- THE CACHE after the first case: the specification's weight array of the packed block and the scale block. -/
theorem scratch_canon (hc0 : cond0_0 i) :
    View.canon (kernelRun0_A (F := Ideal) c i arg2 harg2 arg3 harg3 arg4 harg4 arg5 harg5 arg6 harg6 arg7 harg7 hc0 x0 x1 x2 x3).2.1 = weightArr x1 x2 := by
  funext y
  refine View.canon_apply_of_pieces (weightArr x1 x2) _ ?_ y (scover0_A_0 c i arg2 harg2 arg3 harg3 arg4 harg4 arg5 harg5 arg6 harg6 arg7 harg7 hc0 x0 x1 x2 x3 y)
  intro p hp x
  have hp' : p ∈ kernelRun0_A.sl.HS0_4 (F := Ideal) c i arg3 harg3 arg4 harg4 hc0 x1 x2 := hp
  unfold kernelRun0_A.sl.HS0_4 at hp'
  simp only [List.mem_cons, List.not_mem_nil, or_false] at hp'
  rcases hp' with rfl | rfl | rfl | rfl
  · exact (congrFun (piece3_eq c i arg3 harg3 arg4 harg4 x1 x2 hc0) x).trans
      (chunk_is_rows arg3 harg3 arg4 harg4 x1 x2 3 (by decide) (by decide) (by decide) (by decide) x)
  · exact (congrFun (piece2_eq c i arg3 harg3 arg4 harg4 x1 x2 hc0) x).trans
      (chunk_is_rows arg3 harg3 arg4 harg4 x1 x2 2 (by decide) (by decide) (by decide) (by decide) x)
  · exact (congrFun (piece1_eq c i arg3 harg3 arg4 harg4 x1 x2 hc0) x).trans
      (chunk_is_rows arg3 harg3 arg4 harg4 x1 x2 1 (by decide) (by decide) (by decide) (by decide) x)
  · exact (congrFun (piece0_eq c i arg3 harg3 arg4 harg4 x1 x2 hc0) x).trans
      (chunk_is_rows arg3 harg3 arg4 harg4 x1 x2 0 (by decide) (by decide) (by decide) (by decide) x)

/-- What the first case leaves in the cache. -/
theorem sout_A (hc0 : cond0_0 i) :
    sout0_A_0 (F := Ideal) c i arg2 harg2 arg3 harg3 arg4 harg4 arg5 harg5 arg6 harg6 arg7 harg7 hc0 x0 x1 x2 x3 = weightArr x1 x2 := by
  unfold sout0_A_0
  rw [View.read_writes_junk_eq_canon]
  exact scratch_canon c i arg2 harg2 arg3 harg3 arg4 harg4 arg5 harg5 arg6 harg6 arg7 harg7 x0 x1 x2 x3 hc0

/-- What the first case leaves in the output block: the activation block times the rebuilt cache, plus the bias. -/
theorem out_A (hc0 : cond0_0 i) :
    out0_A_4 (F := Ideal) c i arg2 harg2 arg3 harg3 arg4 harg4 arg5 harg5 arg6 harg6 arg7 harg7 hc0 x0 x1 x2 x3 = affine x0 (weightArr x1 x2) x3 := by
  unfold out0_A_4
  rw [View.read_writes_junk_eq_canon]
  unfold kernelRun0_A
  dsimp only
  rw [View.canon_unit_zero zeroOff, pay2_eq]
  have hw : kernelRun0_A.sl.v6 (F := Ideal) c i arg3 harg3 arg4 harg4 arg7 hc0 x1 x2 = weightArr x1 x2 := by
    unfold kernelRun0_A.sl.v6
    rw [View.readCov_eq_canon_ld _ _ _
        (show ∀ y, ∃ p ∈ kernelRun0_A.sl.HS0_4 (F := Ideal) c i arg3 harg3 arg4 harg4 hc0 x1 x2, y ∈ p.1.set from
          scover0_A_0 c i arg2 harg2 arg3 harg3 arg4 harg4 arg5 harg5 arg6 harg6 arg7 harg7 hc0 x0 x1 x2 x3),
      show View.canon (kernelRun0_A.sl.HS0_4 (F := Ideal) c i arg3 harg3 arg4 harg4 hc0 x1 x2) = weightArr x1 x2 from
        scratch_canon c i arg2 harg2 arg3 harg3 arg4 harg4 arg5 harg5 arg6 harg6 arg7 harg7 x0 x1 x2 x3 hc0,
      View.ld_unit_zero (S := S4096x1024) zeroOff]
  rw [hw]
  simp only [View.readAt_eq_ld, harg2.read_unread, harg5.read_unread,
    View.ld_unit_zero (S := S512x4096) zeroOff, View.ld_unit_zero (S := S1x1024) zeroOff]

/-- What the other case leaves in the output block: the activation block times the cache as found, plus the bias. -/
theorem out_B (hc0 : ¬cond0_0 i) :
    out0_B_4 (F := Ideal) c i arg2 harg2 arg3 harg3 arg4 harg4 arg5 harg5 arg6 harg6 arg7 harg7 hc0 x0 x1 x2 x3 xs0 = affine x0 xs0 x3 := by
  unfold out0_B_4
  rw [View.read_writes_junk_eq_canon]
  unfold kernelRun0_B
  dsimp only
  rw [View.canon_unit_zero zeroOff, pay2_eq]
  simp only [View.readAt_eq_ld, harg2.read_unread, harg5.read_unread, harg7.read_unread,
    View.ld_unit_zero (S := S512x4096) zeroOff, View.ld_unit_zero (S := S1x1024) zeroOff,
    View.ld_unit_zero (S := S4096x1024) zeroOff]

end Cert.KernelIdeal.Deq

end
-- ==== Proof.BlockReads.lean ====
/-
  The blocks the pipeline hands the body, read off the arrays.

  The grid is 4 column blocks by 16 row blocks, the row block moving fastest: point `t` is column block `t / 16`, row
  block `t % 16`.  The activation block at `t` is rows `512 (t % 16) …` of the flattened activations (all 4096
  columns); the packed block, the scale block and the bias block are columns `1024 (t / 16) …` of their arrays (all
  rows).  The flattened activations and the one-row bias are reshapes the host does before the region.
-/
import proofs.«402091_j15539191677564_2_alg».proof.Proof.Gen.KernelIdeal.Frame
import proofs.«402091_j15539191677564_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Deq

open Cert.KernelIdeal Cert.KernelIdeal.Gen Cert.QLin
open Idealize.ShloMosaic Idealize.ShloMosaic.TcCoe Idealize.ShloMosaic.ValueIdx Idealize.SL.Sem

variable (m : (ℓ : Loc nD τ sig) → Buf (Elt Ideal) ℓ)

theorem N64 : cfg0.N = 64 := N_0

/-- The column block of a grid point. -/
def colOf (t : Fin cfg0.N) : Fin 4 := ⟨t.val / 16, by have := lt_of_lt_of_eq t.isLt N64; omega⟩
/-- The row block of a grid point. -/
def rowOf (t : Fin cfg0.N) : Fin 16 := ⟨t.val % 16, Nat.mod_lt _ (by decide)⟩

/-- The four arrays the windows stage, as the region finds them, by their literal types. -/
abbrev actArr (c : Dev nD) : Vec Ideal S8192x4096 .f32 := V m c main_v0
abbrev packedArr (c : Dev nD) : Vec Ideal S512x4096 .i32 := V m c main_arg3
abbrev scaleArr (c : Dev nD) : Vec Ideal S32x4096 .f32 := V m c main_arg1
abbrev biasArr (c : Dev nD) : Vec Ideal S1x4096 .f32 := V m c main_v1

/-- The four input blocks at a point, by their literal types. -/
abbrev actBlk (c : Dev nD) (t : Fin cfg0.N) : Vec Ideal S512x4096 .f32 := iblk m c 0 t
abbrev packedBlk (c : Dev nD) (t : Fin cfg0.N) : Vec Ideal S512x1024 .i32 := iblk m c 1 t
abbrev scaleBlk (c : Dev nD) (t : Fin cfg0.N) : Vec Ideal S32x1024 .f32 := iblk m c 2 t
abbrev biasBlk (c : Dev nD) (t : Fin cfg0.N) : Vec Ideal S1x1024 .f32 := iblk m c 3 t

/-- The windows' printed block indices, decided once over the grid: the activation window moves with the row block, the
    packed, scale and bias windows with the column block. -/
theorem idx_facts : ∀ t : Fin cfg0.N,
    win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = 0 ∧ win0_2.index t (1 : Fin 2) = t.val / 16
    ∧ win0_3.index t (0 : Fin 2) = 0 ∧ win0_3.index t (1 : Fin 2) = t.val / 16 :=
  (by decide +kernel : ∀ t : Fin grid0.N, _)

/-- The activation block: rows `512 (t % 16) …`. -/
theorem actBlk_apply (c : Dev nD) (t : Fin cfg0.N) (p : Fin 512) (k : Fin 4096) :
    actBlk m c t (ix2 p k) = actArr m c (ix2 ⟨512 * (rowOf t).val + p.val, by omega⟩ k) := by
  obtain ⟨e0, e1, -⟩ := idx_facts t
  unfold actBlk iblk
  show V m c main_v0 (((cfg0.win 0).blk t).view.emb (ix2 p k)) = V m c main_v0 _
  refine congrArg _ ?_
  funext a; apply Fin.ext
  match a with
  | ⟨0, _⟩ =>
    show win0_0.index t (0 : Fin 2) * 512 + 1 * p.val = 512 * (t.val % 16) + p.val
    omega
  | ⟨1, _⟩ =>
    show win0_0.index t (1 : Fin 2) * 4096 + 1 * k.val = k.val
    omega

/-- The packed block: columns `1024 (t / 16) …`. -/
theorem packedBlk_apply (c : Dev nD) (t : Fin cfg0.N) (a : Fin 512) (b : Fin 1024) :
    packedBlk m c t (ix2 a b) = packedArr m c (ix2 a ⟨1024 * (colOf t).val + b.val, by omega⟩) := by
  obtain ⟨-, -, e0, e1, -⟩ := idx_facts t
  unfold packedBlk iblk
  show V m c main_arg3 (((cfg0.win 1).blk t).view.emb (ix2 a b)) = V m c main_arg3 _
  refine congrArg _ ?_
  funext x; apply Fin.ext
  match x with
  | ⟨0, _⟩ =>
    show win0_1.index t (0 : Fin 2) * 512 + 1 * a.val = a.val
    omega
  | ⟨1, _⟩ =>
    show win0_1.index t (1 : Fin 2) * 1024 + 1 * b.val = 1024 * (t.val / 16) + b.val
    omega

/-- The scale block: columns `1024 (t / 16) …`. -/
theorem scaleBlk_apply (c : Dev nD) (t : Fin cfg0.N) (g : Fin 32) (b : Fin 1024) :
    scaleBlk m c t (ix2 g b) = scaleArr m c (ix2 g ⟨1024 * (colOf t).val + b.val, by omega⟩) := by
  obtain ⟨-, -, -, -, e0, e1, -⟩ := idx_facts t
  unfold scaleBlk iblk
  show V m c main_arg1 (((cfg0.win 2).blk t).view.emb (ix2 g b)) = V m c main_arg1 _
  refine congrArg _ ?_
  funext x; apply Fin.ext
  match x with
  | ⟨0, _⟩ =>
    show win0_2.index t (0 : Fin 2) * 32 + 1 * g.val = g.val
    omega
  | ⟨1, _⟩ =>
    show win0_2.index t (1 : Fin 2) * 1024 + 1 * b.val = 1024 * (t.val / 16) + b.val
    omega

/-- The bias block: columns `1024 (t / 16) …` of the one row. -/
theorem biasBlk_apply (c : Dev nD) (t : Fin cfg0.N) (z : Fin 1) (b : Fin 1024) :
    biasBlk m c t (ix2 z b) = biasArr m c (ix2 0 ⟨1024 * (colOf t).val + b.val, by omega⟩) := by
  obtain ⟨-, -, -, -, -, -, e0, e1⟩ := idx_facts t
  have hz : z.val = 0 := by omega
  unfold biasBlk iblk
  show V m c main_v1 (((cfg0.win 3).blk t).view.emb (ix2 z b)) = V m c main_v1 _
  refine congrArg _ ?_
  funext x; apply Fin.ext
  match x with
  | ⟨0, _⟩ =>
    show win0_3.index t (0 : Fin 2) * 1 + 1 * z.val = 0
    omega
  | ⟨1, _⟩ =>
    show win0_3.index t (1 : Fin 2) * 1024 + 1 * b.val = 1024 * (t.val / 16) + b.val
    omega

/-- The flattened activations are the host's reshape of the first argument. -/
theorem actArr_eq (c : Dev nD) :
    actArr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The one-row bias is the host's reshape of the third argument: the specification's `biasRow`. -/
theorem biasArr_eq (c : Dev nD) : biasArr m c = biasRow (m ((c : Thread nD τ).loc main_arg2)) := by
  have e : biasArr m c = shapeCast S1x4096 (m ((c : Thread nD τ).loc main_arg2)) shapeCasts_S4096_S1x4096 := by
    show StableHlo.after hostOps0 (fun b => m (c, b)) (Proc.devRef .tc main_v1) = _
    after_results
    rfl
  rw [e]
  funext y
  unfold biasRow
  refine shapeCast_apply _ _ y (ix1 (y 1)) ?_
  have h0 : (y 0).val < 1 := (y 0).isLt
  rw [Shape.rowMajor_val_two, Shape.rowMajor_val_one]
  show (y 1).val = (y 0).val * 4096 + (y 1).val
  omega

theorem packedArr_eq (c : Dev nD) : packedArr m c = m ((c : Thread nD τ).loc main_arg3) := V_main_arg3 m c
theorem scaleArr_eq (c : Dev nD) : scaleArr m c = m ((c : Thread nD τ).loc main_arg1) := V_main_arg1 m c

end Cert.KernelIdeal.Deq

end
-- ==== Proof.Points.lean ====
/-
  What the cache and the output block hold after every grid point.

  Point `t` is column block `n = t / 16`, row block `t % 16`.  The cache is rebuilt exactly at the points with
  `t % 16 = 0`, from the packed and scale blocks of column block `n`; the fifteen points that follow are in the same
  column block and leave it alone.  So after every point the cache holds columns `1024 n …` of the whole weight array,
  and the output block holds block `(t % 16, n)` of the result: the activation rows `512 (t % 16) …` times those
  weight columns, plus the bias of those columns.
-/
import proofs.«402091_j15539191677564_2_alg».proof.Proof.Blocks
import proofs.«402091_j15539191677564_2_alg».proof.Proof.BlockReads

set_option maxRecDepth 16384

noncomputable section

namespace Cert.KernelIdeal.Deq

open Cert.KernelIdeal Cert.KernelIdeal.Gen Cert.QLin
open Idealize.ShloMosaic Idealize.ShloMosaic.TcCoe Idealize.ShloMosaic.ValueIdx Idealize.SL.Sem

variable (m : (ℓ : Loc nD τ sig) → Buf (Elt Ideal) ℓ)

/-- Entry `(k, q)` of columns `1024 n …` of the whole weight array. -/
def weightColsAt (c : Dev nD) (n : Fin 4) (k : Fin 4096) (q : Fin 1024) : EReal :=
  weight (packedArr m c) (scaleArr m c) k ⟨1024 * n.val + q.val, by omega⟩

/-- Columns `1024 n …` of the whole weight array. -/
def weightCols (c : Dev nD) (n : Fin 4) : Vec Ideal S4096x1024 .bf16 := fun y => weightColsAt m c n (y 0) (y 1)

/-- Entry `(p, q)` of block `(mb, nb)` of the result. -/
def resultBlockAt (c : Dev nD) (mb : Fin 16) (nb : Fin 4) (p : Fin 512) (q : Fin 1024) : EReal :=
  linear (actArr m c) (scaleArr m c) (biasArr m c) (packedArr m c)
    (ix2 ⟨512 * mb.val + p.val, by omega⟩ ⟨1024 * nb.val + q.val, by omega⟩)

/-- Block `(mb, nb)` of the result. -/
def resultBlock (c : Dev nD) (mb : Fin 16) (nb : Fin 4) : Vec Ideal S512x1024 .f32 :=
  fun y => resultBlockAt m c mb nb (y 0) (y 1)

/-- The weight array of a point's packed and scale blocks is the weight columns of its column block: the blocks are
    those columns of the arrays, row for row. -/
theorem weightArr_blocks (c : Dev nD) (t : Fin cfg0.N) :
    weightArr (packedBlk m c t) (scaleBlk m c t) = weightCols m c (colOf t) := by
  funext y
  obtain ⟨k, q, rfl⟩ : ∃ (k : Fin 4096) (q : Fin 1024), y = ix2 k q := ⟨y 0, y 1, eq_ix2 y⟩
  show weightAt (packedBlk m c t) (scaleBlk m c t) _ _ _ q = weightAt (packedArr m c) (scaleArr m c) _ _ _ _
  unfold weightAt
  rw [packedBlk_apply, scaleBlk_apply]

/-- The activation block times the weight columns of the column block, plus the bias block, is the result's block. -/
theorem affine_blocks (c : Dev nD) (t : Fin cfg0.N) :
    affine (actBlk m c t) (weightCols m c (colOf t)) (biasBlk m c t) = resultBlock m c (rowOf t) (colOf t) := by
  funext y
  obtain ⟨p, q, rfl⟩ : ∃ (p : Fin 512) (q : Fin 1024), y = ix2 p q := ⟨y 0, y 1, eq_ix2 y⟩
  show (∑ k : Fin 4096, actBlk m c t (ix2 p k) * weightCols m c (colOf t) (ix2 k q)) + biasBlk m c t (ix2 0 q)
      = (∑ k : Fin 4096, actArr m c (ix2 ⟨512 * (rowOf t).val + p.val, by omega⟩ k)
            * weight (packedArr m c) (scaleArr m c) k ⟨1024 * (colOf t).val + q.val, by omega⟩)
          + biasArr m c (ix2 0 ⟨1024 * (colOf t).val + q.val, by omega⟩)
  rw [biasBlk_apply]
  refine congrArg (· + _) (Finset.sum_congr rfl fun k _ => ?_)
  rw [actBlk_apply]
  rfl

/-- At a point where the cache is rebuilt. -/
theorem cache_rebuilt (c : Dev nD) (t : Fin cfg0.N) (h0 : t.val % 16 = 0) :
    (outsAt0 m c t.val t.isLt).2 = weightCols m c (colOf t) := by
  rw [outsAt0_A m c t h0]
  dsimp only
  rw [sout_A c (grid0.coords t) (ms0_0 t) (hs0_0 t) (ms0_1 t) (hs0_1 t) (ms0_2 t) (hs0_2 t) (ms0_3 t) (hs0_3 t) (ms0_4 t) (hs0_4 t) scM0_0 (Memref.isWhole_whole _) (actBlk m c t) (packedBlk m c t) (scaleBlk m c t) (biasBlk m c t) ((hcond0_0 t).mpr h0)]
  exact weightArr_blocks m c t

/-- THE CACHE after point `t`: the weight columns of `t`'s column block. -/
theorem cacheAt (c : Dev nD) (t : Fin cfg0.N) : (outsAt0 m c t.val t.isLt).2 = weightCols m c (colOf t) := by
  obtain ⟨n, hn⟩ := t
  induction n with
  | zero => exact cache_rebuilt m c ⟨0, hn⟩ (Nat.zero_mod _)
  | succ n ih =>
    by_cases h0 : (n + 1) % 16 = 0
    · exact cache_rebuilt m c ⟨n + 1, hn⟩ h0
    · rw [outsAt0_B m c ⟨n + 1, hn⟩ h0]
      dsimp only
      unfold sout0_B_0
      refine (ih (Nat.lt_of_succ_lt hn)).trans (congrArg (weightCols m c) (Fin.ext ?_))
      show n / 16 = (n + 1) / 16
      omega

/-- THE OUTPUT BLOCK after point `t`: block `(t % 16, t / 16)` of the result. -/
theorem outAt (c : Dev nD) (t : Fin cfg0.N) : (outsAt0 m c t.val t.isLt).1 = resultBlock m c (rowOf t) (colOf t) := by
  by_cases h0 : t.val % 16 = 0
  · rw [outsAt0_A m c t h0]
    dsimp only
    rw [out_A c (grid0.coords t) (ms0_0 t) (hs0_0 t) (ms0_1 t) (hs0_1 t) (ms0_2 t) (hs0_2 t) (ms0_3 t) (hs0_3 t) (ms0_4 t) (hs0_4 t) scM0_0 (Memref.isWhole_whole _) (actBlk m c t) (packedBlk m c t) (scaleBlk m c t) (biasBlk m c t) ((hcond0_0 t).mpr h0), weightArr_blocks]
    exact affine_blocks m c t
  · have hpos : 0 < t.val := Nat.pos_of_ne_zero fun h => h0 (by rw [h])
    have hprev : t.val - 1 < cfg0.N := Nat.lt_of_le_of_lt (Nat.sub_le _ _) t.isLt
    have hc : (outsAt0 m c (t.val - 1) hprev).2 = weightCols m c (colOf t) := by
      refine (cacheAt m c ⟨t.val - 1, hprev⟩).trans (congrArg (weightCols m c) (Fin.ext ?_))
      show (t.val - 1) / 16 = t.val / 16
      omega
    rw [outsAt0_B m c t h0]
    dsimp only
    rw [out_B c (grid0.coords t) (ms0_0 t) (hs0_0 t) (ms0_1 t) (hs0_1 t) (ms0_2 t) (hs0_2 t) (ms0_3 t) (hs0_3 t) (ms0_4 t) (hs0_4 t) scM0_0 (Memref.isWhole_whole _) (actBlk m c t) (packedBlk m c t) (scaleBlk m c t) (biasBlk m c t) (outsAt0 m c (t.val - 1) hprev).2 (fun h => h0 ((hcond0_0 t).mp h)), hc]
    exact affine_blocks m c t

end Cert.KernelIdeal.Deq

end
-- ==== Proof.Final.lean ====
/-
  From the blocks to the whole result, and the kernel program's run.

  Every point writes its output block back to block `(t % 16, t / 16)` of the 8192 × 4096 result; the 64 blocks tile
  it, so after the run the array is the specification's matrix of the arrays the region found.  The host then
  regroups its rows as the activations were given.
-/
import proofs.«402091_j15539191677564_2_alg».proof.Proof.Points

set_option maxRecDepth 16384

noncomputable section

namespace Cert.KernelIdeal.Deq

open Cert.KernelIdeal Cert.KernelIdeal.Gen Cert.QLin
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result matrix of the arrays as the region finds them. -/
abbrev resultArr (c : Dev nD) : Vec Ideal S8192x4096 .f32 :=
  linear (actArr m c) (scaleArr m c) (biasArr m c) (packedArr m c)

/-- The result window's block indices, decided once over the grid: its row block moves fastest. -/
theorem out_idx_facts : ∀ t : Fin cfg0.N,
    win0_4.index t (0 : Fin 2) = t.val % 16 ∧ win0_4.index t (1 : Fin 2) = t.val / 16 :=
  (by decide +kernel : ∀ t : Fin grid0.N, _)

/-- WHAT POINT `t` WRITES BACK is block `t` of the result matrix. -/
theorem flushed_eq (c : Dev nD) (t : Fin cfg0.N) :
    (dats m 0 c).flushed 4 t = ((cfg0.win 4).blk t).view.read (Elt Ideal) (resultArr m c) := by
  show (cfg0.win 4).cut (grid0.coords t) ((dats m 0 c).after 4 t) = _
  rw [after0_4, outAt m c t]
  obtain ⟨e0, e1⟩ := out_idx_facts t
  refine funext fun (y : S512x1024.Idx) => ?_
  obtain ⟨p, q, rfl⟩ : ∃ (p : Fin 512) (q : Fin 1024), y = ix2 p q := ⟨y 0, y 1, eq_ix2 y⟩
  show resultBlockAt m c (rowOf t) (colOf t) p q = resultArr m c (((cfg0.win 4).blk t).view.emb (ix2 p q))
  unfold resultBlockAt
  refine congrArg (resultArr m c) ?_
  funext a; apply Fin.ext
  match a with
  | ⟨0, _⟩ =>
    show 512 * (t.val % 16) + p.val = win0_4.index t (0 : Fin 2) * 512 + 1 * p.val
    omega
  | ⟨1, _⟩ =>
    show 1024 * (t.val / 16) + q.val = win0_4.index t (1 : Fin 2) * 1024 + 1 * q.val
    omega

/-- An index of the result is in point `t`'s block iff each coordinate is in the block's range on its axis. -/
theorem mem_blk (t : Fin cfg0.N) (i : S8192x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v2).slice (win0_4.rect t)).set ↔ _
  rw [View.set_slice_whole, Rect.mem_set_unit]
  exact Iff.rfl

/-- The 64 blocks tile the result: entry `(r, j)` is in the block of point `16 (j / 1024) + r / 512`. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 64 := N_0
  let t : Fin cfg0.N := ⟨16 * ((i 1).val / 1024) + (i 0).val / 512, by omega⟩
  obtain ⟨e0, e1⟩ := out_idx_facts t
  have ht : t.val = 16 * ((i 1).val / 1024) + (i 0).val / 512 := rfl
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- THE ARRAY after the run. -/
theorem final (c : Dev nD) : (dats m 0 c).arrAt 4 cfg0.N = resultArr m c := by
  exact (dats m 0 c).arrAt_eq_of_cover 4 (resultArr m c) (fun t _ => flushed_eq m c t) cover

/-- The result matrix over the four arguments: the flattened activations and the one-row bias are the host's regroupings
    of the first and third, the scales and the packed words are the second and fourth as given. -/
theorem resultArr_eq (c : Dev nD) : resultArr m c
    = linear (shapeCast S8192x4096 (m ((c.tc : Thread nD τ).loc main_arg0)) shapeCasts_S4x2048x4096_S8192x4096)
        (m ((c.tc : Thread nD τ).loc main_arg1)) (biasRow (m ((c.tc : Thread nD τ).loc main_arg2)))
        (m ((c.tc : Thread nD τ).loc main_arg3)) := by
  show linear (actArr m c) (scaleArr m c) (biasArr m c) (packedArr m c) = _
  rw [actArr_eq, scaleArr_eq, biasArr_eq, packedArr_eq]

/-- THE RESULT BUFFER after the host's last operation: the result matrix with its rows regrouped. -/
theorem tail_result (c : Dev nD) :
    Pipeline.afterTail₀ cfgs (dats m) 0 (V0 m) [hostOps1] c main_v3
      = shapeCast S4x2048x4096 (resultArr m c) shapeCasts_S8192x4096_S4x2048x4096 := by
  unfold Pipeline.afterTail₀
  show StableHlo.after hostOps1 _ (Proc.devRef .tc main_v3) = _
  after_results
  exact congrArg (fun X : Vec Ideal S8192x4096 .f32 => shapeCast S4x2048x4096 X shapeCasts_S8192x4096_S4x2048x4096)
    ((Pipeline.withArrays_arr spec0 launch0.win.arr_inj c _ _ 4).trans (final m c))

/-- THE KERNEL PROGRAM'S RUN: every weakly fair execution ends with the result buffer at the regrouped matrix of the
    four arguments, and the arguments unchanged. -/
theorem run : θ_run defs (onTc (τ := τ) (main (F := Ideal))) ⟨m, fun _ => 0, ρ⟩ fun r => ∀ c : Dev nD,
      r.2.mem ((c.tc : Thread nD τ).loc main_v3)
          = shapeCast S4x2048x4096
              (linear (shapeCast S8192x4096 (m ((c.tc : Thread nD τ).loc main_arg0)) shapeCasts_S4x2048x4096_S8192x4096)
                (m ((c.tc : Thread nD τ).loc main_arg1)) (biasRow (m ((c.tc : Thread nD τ).loc main_arg2)))
                (m ((c.tc : Thread nD τ).loc main_arg3)))
              shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c =>
      ⟨(((h c).2 main_v3 (Pipeline.mem_restRefs_of main_v3 (by decide) (by decide))).trans (tail_result m c)).trans
          (congrArg (fun X : Vec Ideal S8192x4096 .f32 => shapeCast S4x2048x4096 X shapeCasts_S8192x4096_S4x2048x4096)
            (resultArr_eq m c)),
        ((h c).2 main_arg0 (Pipeline.mem_restRefs_of main_arg0 (by decide) (by decide))).trans (W_main_arg0 m (dats m) c),
        ((h c).1 2).trans (((dats m 0 c).arrAt_in 2 rfl _).trans ((A_eq m c 2).trans (V_main_arg1 m c))),
        ((h c).2 main_arg2 (Pipeline.mem_restRefs_of main_arg2 (by decide) (by decide))).trans (W_main_arg2 m (dats m) c),
        ((h c).1 1).trans (((dats m 0 c).arrAt_in 1 rfl _).trans ((A_eq m c 1).trans (V_main_arg3 m c)))⟩)
    (run_main m ρ)

end Cert.KernelIdeal.Deq

end
-- ==== Proof.RefTerm.lean ====
/-
  The reference program's result as one term of its four arguments: its thirty-one host operations composed.

  The packed words are shifted right by 0, 4, …, 28 (four times a count 0 … 7) along a new middle axis and masked to four
  bits; the 512 × 8 codes of a column are regrouped as 32 groups of 128; each code indexes the table of sixteen levels;
  each group is scaled by its scale row; the groups are flattened to 4096 weight rows; the flattened activations are
  multiplied by that weight, the bias is added to every row, and the rows are regrouped as the activations were.
-/
import proofs.«402091_j15539191677564_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The table of levels as the program's constant. -/
def refTable : (⟨S16, .f32⟩ : BufTy).Contents (Elt F) := fun i => FloatOps.ofBits .f32 (lit0 (S16.rowMajor i))

/-- The shift amounts `0, 4, …, 28`. -/
def refShifts : (⟨S8, .i32⟩ : BufTy).Contents (Elt F) :=
  addi (broadcastInDim S8 ![] bcast_S_S8 (constantI S_ 32 0#32))
    (muli (broadcastInDim S8 ![] bcast_S_S8 (constantI S_ 32 4#32)) (iotaInDim S8 32 0))

/-- The codes, 512 × 8 × 4096, regrouped as 32 × 128 × 4096. -/
def refCodes (qw : (⟨S512x4096, .i32⟩ : BufTy).Contents (Elt F)) : (⟨S32x128x4096, .i32⟩ : BufTy).Contents (Elt F) :=
  id (shapeCast S32x128x4096
    (andi
      (Host.shrui
        (broadcastInDim S512x8x4096 ![0, 1, 2] bcast_S512x1x4096_S512x8x4096_0_1_2
          (broadcastInDim S512x1x4096 ![0, 2] bcast_S512x4096_S512x1x4096_0_2 (id qw)))
        (broadcastInDim S512x8x4096 ![0, 1, 2] bcast_S1x8x1_S512x8x4096_0_1_2
          (broadcastInDim S1x8x1 ![1] bcast_S8_S1x8x1_1 (refShifts (F := F)))))
      (broadcastInDim S512x8x4096 ![] bcast_S_S512x8x4096 (constantI S_ 32 15#32)))
    shapeCasts_S512x8x4096_S32x128x4096)

/-- The dequantised weight, 4096 × 4096. -/
def refWeight (sc : (⟨S32x4096, .f32⟩ : BufTy).Contents (Elt F)) (qw : (⟨S512x4096, .i32⟩ : BufTy).Contents (Elt F)) :
    (⟨S4096x4096, .f32⟩ : BufTy).Contents (Elt F) :=
  shapeCast S4096x4096
    (mulf
      (Host.gather gather_S16_S32x128x4096x1_S32x128x4096_n_0_n_n_0_3_1 (refTable (F := F))
        (broadcastInDim S32x128x4096x1 ![0, 1, 2] bcast_S32x128x4096_S32x128x4096x1_0_1_2 (refCodes qw)))
      (broadcastInDim S32x128x4096 ![0, 1, 2] bcast_S32x1x4096_S32x128x4096_0_1_2
        (broadcastInDim S32x1x4096 ![0, 2] bcast_S32x4096_S32x1x4096_0_2 sc)))
    shapeCasts_S32x128x4096_S4096x4096

/-- The result before its last regrouping: 8192 × 4096. -/
def refFlat (x : (⟨S4x2048x4096, .f32⟩ : BufTy).Contents (Elt F)) (sc : (⟨S32x4096, .f32⟩ : BufTy).Contents (Elt F))
    (b : (⟨S4096, .f32⟩ : BufTy).Contents (Elt F)) (qw : (⟨S512x4096, .i32⟩ : BufTy).Contents (Elt F)) :
    (⟨S8192x4096, .f32⟩ : BufTy).Contents (Elt F) :=
  addf
    (Host.dotGeneral dot_S8192x4096_S4096x4096_S8192x4096_1_0_0_1_n_n none
      (shapeCast S8192x4096 x shapeCasts_S4x2048x4096_S8192x4096) (refWeight sc qw))
    (broadcastInDim S8192x4096 ![0, 1] bcast_S1x4096_S8192x4096_0_1
      (broadcastInDim S1x4096 ![1] bcast_S4096_S1x4096_1 b))

/-- The reference's result. -/
def refTerm (x : (⟨S4x2048x4096, .f32⟩ : BufTy).Contents (Elt F)) (sc : (⟨S32x4096, .f32⟩ : BufTy).Contents (Elt F))
    (b : (⟨S4096, .f32⟩ : BufTy).Contents (Elt F)) (qw : (⟨S512x4096, .i32⟩ : BufTy).Contents (Elt F)) :
    (⟨S4x2048x4096, .f32⟩ : BufTy).Contents (Elt F) :=
  shapeCast S4x2048x4096 (refFlat x sc b qw) shapeCasts_S8192x4096_S4x2048x4096

end Cert.ReferenceIdeal.RefValue

end
-- ==== Proof.RefRun.lean ====
/-
  The reference program's run: every weakly fair execution of its thirty-one host operations ends with the result
  buffer at their composed term of the four argument arrays, and the arguments unchanged.
-/
import proofs.«402091_j15539191677564_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's thirty-one operations, in order. -/
abbrev ops : List (HloOp τ sig (Elt F)) :=
  [ nullary main_cst (fun i => FloatOps.ofBits .f32 (lit0 (S16.rowMajor i))),
    reshape main_arg0 main_v0 rfl shapeCasts_S4x2048x4096_S8192x4096,
    unary main_arg3 main_v1 (id : (⟨S512x4096, .i32⟩ : BufTy).Contents (Elt F) → (⟨S512x4096, .i32⟩ : BufTy).Contents (Elt F)),
    nullary main_v2 (iotaInDim S8 32 0),
    nullary main_c (constantI S_ 32 4#32),
    unary main_c main_v3 (broadcastInDim S8 ![] bcast_S_S8 : (⟨S_, .i32⟩ : BufTy).Contents (Elt F) → (⟨S8, .i32⟩ : BufTy).Contents (Elt F)),
    binary main_v3 main_v2 main_v4 (muli : (⟨S8, .i32⟩ : BufTy).Contents (Elt F) → (⟨S8, .i32⟩ : BufTy).Contents (Elt F) → (⟨S8, .i32⟩ : BufTy).Contents (Elt F)),
    nullary main_c_0 (constantI S_ 32 0#32),
    unary main_c_0 main_v5 (broadcastInDim S8 ![] bcast_S_S8 : (⟨S_, .i32⟩ : BufTy).Contents (Elt F) → (⟨S8, .i32⟩ : BufTy).Contents (Elt F)),
    binary main_v5 main_v4 main_v6 (addi : (⟨S8, .i32⟩ : BufTy).Contents (Elt F) → (⟨S8, .i32⟩ : BufTy).Contents (Elt F) → (⟨S8, .i32⟩ : BufTy).Contents (Elt F)),
    unary main_v1 main_v7 (broadcastInDim S512x1x4096 ![0, 2] bcast_S512x4096_S512x1x4096_0_2 : (⟨S512x4096, .i32⟩ : BufTy).Contents (Elt F) → (⟨S512x1x4096, .i32⟩ : BufTy).Contents (Elt F)),
    unary main_v6 main_v8 (broadcastInDim S1x8x1 ![1] bcast_S8_S1x8x1_1 : (⟨S8, .i32⟩ : BufTy).Contents (Elt F) → (⟨S1x8x1, .i32⟩ : BufTy).Contents (Elt F)),
    unary main_v7 main_v9 (broadcastInDim S512x8x4096 ![0, 1, 2] bcast_S512x1x4096_S512x8x4096_0_1_2 : (⟨S512x1x4096, .i32⟩ : BufTy).Contents (Elt F) → (⟨S512x8x4096, .i32⟩ : BufTy).Contents (Elt F)),
    unary main_v8 main_v10 (broadcastInDim S512x8x4096 ![0, 1, 2] bcast_S1x8x1_S512x8x4096_0_1_2 : (⟨S1x8x1, .i32⟩ : BufTy).Contents (Elt F) → (⟨S512x8x4096, .i32⟩ : BufTy).Contents (Elt F)),
    binary main_v9 main_v10 main_v11 (Host.shrui : (⟨S512x8x4096, .i32⟩ : BufTy).Contents (Elt F) → (⟨S512x8x4096, .i32⟩ : BufTy).Contents (Elt F) → (⟨S512x8x4096, .i32⟩ : BufTy).Contents (Elt F)),
    nullary main_c_1 (constantI S_ 32 15#32),
    unary main_c_1 main_v12 (broadcastInDim S512x8x4096 ![] bcast_S_S512x8x4096 : (⟨S_, .i32⟩ : BufTy).Contents (Elt F) → (⟨S512x8x4096, .i32⟩ : BufTy).Contents (Elt F)),
    binary main_v11 main_v12 main_v13 (andi : (⟨S512x8x4096, .i32⟩ : BufTy).Contents (Elt F) → (⟨S512x8x4096, .i32⟩ : BufTy).Contents (Elt F) → (⟨S512x8x4096, .i32⟩ : BufTy).Contents (Elt F)),
    reshape main_v13 main_v14 rfl shapeCasts_S512x8x4096_S32x128x4096,
    unary main_v14 main_v15 (id : (⟨S32x128x4096, .i32⟩ : BufTy).Contents (Elt F) → (⟨S32x128x4096, .i32⟩ : BufTy).Contents (Elt F)),
    unary main_v15 main_v16 (broadcastInDim S32x128x4096x1 ![0, 1, 2] bcast_S32x128x4096_S32x128x4096x1_0_1_2 : (⟨S32x128x4096, .i32⟩ : BufTy).Contents (Elt F) → (⟨S32x128x4096x1, .i32⟩ : BufTy).Contents (Elt F)),
    binary main_cst main_v16 main_v17 ((fun x i => Host.gather gather_S16_S32x128x4096x1_S32x128x4096_n_0_n_n_0_3_1 x i) : (⟨S16, .f32⟩ : BufTy).Contents (Elt F) → (⟨S32x128x4096x1, .i32⟩ : BufTy).Contents (Elt F) → (⟨S32x128x4096, .f32⟩ : BufTy).Contents (Elt F)),
    unary main_arg1 main_v18 (broadcastInDim S32x1x4096 ![0, 2] bcast_S32x4096_S32x1x4096_0_2 : (⟨S32x4096, .f32⟩ : BufTy).Contents (Elt F) → (⟨S32x1x4096, .f32⟩ : BufTy).Contents (Elt F)),
    unary main_v18 main_v19 (broadcastInDim S32x128x4096 ![0, 1, 2] bcast_S32x1x4096_S32x128x4096_0_1_2 : (⟨S32x1x4096, .f32⟩ : BufTy).Contents (Elt F) → (⟨S32x128x4096, .f32⟩ : BufTy).Contents (Elt F)),
    binary main_v17 main_v19 main_v20 (mulf : (⟨S32x128x4096, .f32⟩ : BufTy).Contents (Elt F) → (⟨S32x128x4096, .f32⟩ : BufTy).Contents (Elt F) → (⟨S32x128x4096, .f32⟩ : BufTy).Contents (Elt F)),
    reshape main_v20 main_v21 rfl shapeCasts_S32x128x4096_S4096x4096,
    binary main_v0 main_v21 main_v22 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    unary main_arg2 main_v23 (broadcastInDim S1x4096 ![1] bcast_S4096_S1x4096_1 : (⟨S4096, .f32⟩ : BufTy).Contents (Elt F) → (⟨S1x4096, .f32⟩ : BufTy).Contents (Elt F)),
    unary main_v23 main_v24 (broadcastInDim S8192x4096 ![0, 1] bcast_S1x4096_S8192x4096_0_1 : (⟨S1x4096, .f32⟩ : BufTy).Contents (Elt F) → (⟨S8192x4096, .f32⟩ : BufTy).Contents (Elt F)),
    binary main_v22 main_v24 main_v25 (addf : (⟨S8192x4096, .f32⟩ : BufTy).Contents (Elt F) → (⟨S8192x4096, .f32⟩ : BufTy).Contents (Elt F) → (⟨S8192x4096, .f32⟩ : BufTy).Contents (Elt F)),
    reshape main_v25 main_v26 rfl shapeCasts_S8192x4096_S4x2048x4096 ]

/-- The program is its operations run in order. -/
theorem main_eq (c : Dev nD) : main (F := F) c = seq ops := rfl
/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide
/-- Every operation touches only the device's own references. -/
theorem ops_sub : (ops : List (HloOp τ sig (Elt F))).Forall fun op => op.bufs ⊆ tcRefs τ sig :=
  ⟨nullary_bufs_sub .., reshape_bufs_sub .., unary_bufs_sub .., nullary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., unary_bufs_sub .., unary_bufs_sub .., binary_bufs_sub .., unary_bufs_sub .., unary_bufs_sub .., binary_bufs_sub .., reshape_bufs_sub .., binary_bufs_sub .., unary_bufs_sub .., unary_bufs_sub .., binary_bufs_sub .., reshape_bufs_sub ..⟩

/-- On every device, for any float values, from any memory with zero counters: every weakly fair execution terminates
    with the result buffer at the composed term of the four arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c => ⟨(h c main_v26).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefValue

end
-- ==== Proof.RefRead.lean ====
/-
  The reference's term, read entry by entry on the extended reals, is the function of the specification.
-/
import proofs.«402091_j15539191677564_2_alg».proof.Proof.RefTerm
import proofs.«402091_j15539191677564_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The shift amounts and the codes -/

/-- The shift amount of slot `s` is the word `4 s`. -/
theorem refShifts_apply (s : Fin 8) : refShifts (F := Ideal) (ix1 s) = BitVec.ofNat 32 (4 * s.val) := by
  show 0#32 + 4#32 * BitVec.ofNat 32 s.val = _
  fin_cases s <;> rfl

/-- That word's value is `4 s` (below 32). -/
theorem shift_toNat (s : Fin 8) : (BitVec.ofNat 32 (4 * s.val)).toNat = 4 * s.val := by
  rw [BitVec.toNat_ofNat]; exact Nat.mod_eq_of_lt (by have := s.isLt; omega)

/-- The packed words laid along a new middle axis of eight slots: entry `(a, s, j)` is word `(a, j)`. -/
theorem bcast_words (qw : (⟨S512x4096, .i32⟩ : BufTy).Contents (Elt Ideal)) (a : Fin 512) (s : Fin 8) (j : Fin 4096) :
    broadcastInDim S512x8x4096 ![0, 1, 2] bcast_S512x1x4096_S512x8x4096_0_1_2
      (broadcastInDim S512x1x4096 ![0, 2] bcast_S512x4096_S512x1x4096_0_2 qw) (ix3 a s j) = qw (ix2 a j) := by
  refine (broadcastInDim_apply _ _ _ (ix3 a s j) (ix3 a (0 : Fin 1) j) ?_).trans
    (broadcastInDim_apply _ _ _ (ix3 a (0 : Fin 1) j) (ix2 a j) ?_)
  · intro c
    match c with
    | ⟨0, _⟩ => rfl
    | ⟨1, _⟩ => rfl
    | ⟨2, _⟩ => rfl
  · intro c
    match c with
    | ⟨0, _⟩ => rfl
    | ⟨1, _⟩ => rfl

/-- A vector of eight laid along the middle axis: entry `(a, s, j)` is entry `s`. -/
theorem bcast_slots {α : Type} (v : S8.Idx → α) (a : Fin 512) (s : Fin 8) (j : Fin 4096) :
    broadcastInDim S512x8x4096 ![0, 1, 2] bcast_S1x8x1_S512x8x4096_0_1_2
      (broadcastInDim S1x8x1 ![1] bcast_S8_S1x8x1_1 v) (ix3 a s j) = v (ix1 s) := by
  refine (broadcastInDim_apply _ _ _ (ix3 a s j) (ix3 (0 : Fin 1) s (0 : Fin 1)) ?_).trans
    (broadcastInDim_apply _ _ _ (ix3 (0 : Fin 1) s (0 : Fin 1)) (ix1 s) ?_)
  · intro c
    match c with
    | ⟨0, _⟩ => rfl
    | ⟨1, _⟩ => rfl
    | ⟨2, _⟩ => rfl
  · intro c
    match c with
    | ⟨0, _⟩ => rfl

/-- The codes: entry `(g, t, j)` is code `(128 g + t) % 8` of packed word `((128 g + t) / 8, j)`. -/
theorem refCodes_apply (qw : (⟨S512x4096, .i32⟩ : BufTy).Contents (Elt Ideal)) (g : Fin 32) (t : Fin 128) (j : Fin 4096) :
    refCodes (F := Ideal) qw (ix3 g t j)
      = Cert.QLin.nibble (qw (ix2 (⟨(g.val * 128 + t.val) / 8, by omega⟩ : Fin 512) j)) ((g.val * 128 + t.val) % 8) := by
  have hg := g.isLt
  have ht := t.isLt
  unfold refCodes
  show shapeCast S32x128x4096 _ _ (ix3 g t j) = _
  rw [shapeCast_apply _ _ (ix3 g t j)
    (ix3 (⟨(g.val * 128 + t.val) / 8, by omega⟩ : Fin 512) (⟨(g.val * 128 + t.val) % 8, Nat.mod_lt _ (by decide)⟩ : Fin 8) j) (by
      rw [Shape.rowMajor_val_three, Shape.rowMajor_val_three]
      show ((g.val * 128 + t.val) / 8 * 8 + (g.val * 128 + t.val) % 8) * 4096 + j.val = (g.val * 128 + t.val) * 4096 + j.val
      omega)]
  show IntOp.andi (IntOp.shrui .host (broadcastInDim S512x8x4096 ![0, 1, 2] _ (broadcastInDim S512x1x4096 ![0, 2] _ qw) _)
    (broadcastInDim S512x8x4096 ![0, 1, 2] _ (broadcastInDim S1x8x1 ![1] _ refShifts) _)) 15#32 = _
  rw [bcast_words, bcast_slots, refShifts_apply, shrui_host]
  unfold IntOp.andi IntOp.shrui Cert.QLin.nibble
  rw [if_pos (by rw [shift_toNat]; show 4 * ((g.val * 128 + t.val) % 8) < 32; omega)]
  rw [BitVec.ushiftRight_eq', shift_toNat]

/-! ## The table of levels and the gather -/

/-- The two tables of levels are the same sixteen words. -/
theorem lit0_eq_levelWord : ∀ c : Fin 16, lit0 c = Cert.QLin.levelWord c := by decide

/-- The program's table at entry `c` is the level's word at `c`, read as an extended real. -/
theorem refTable_apply (c : Fin 16) : refTable (F := Ideal) (ix1 c) = Ideal.ofBits .f32 (Cert.QLin.levelWord c) := by
  show Ideal.ofBits .f32 (lit0 (S16.rowMajor (ix1 c))) = _
  have e : S16.rowMajor (ix1 c) = c := Fin.ext (Shape.rowMajor_val_one _)
  rw [e, lit0_eq_levelWord]

/-- A start index read as a signed integer and clamped into `[0, 15]`. -/
def clampCode {w : Nat} (c : BitVec w) : Fin 16 := ⟨min c.toInt.toNat 15, by omega⟩

/-- The gather of a sixteen-entry table at a 32 × 128 × 4096 array of start indices: entry `(g, t, j)` is the table at the
    start index there, read signed and clamped into `[0, 15]`. -/
theorem gather_codes_apply {α : Type} {w : Nat} (x : S16.Idx → α) (idx : IVec S32x128x4096x1 w) (g : Fin 32) (t : Fin 128) (j : Fin 4096) :
    Host.gather gather_S16_S32x128x4096x1_S32x128x4096_n_0_n_n_0_3_1 x idx (ix3 g t j)
      = x (ix1 (clampCode (idx (ix4 g t j (0 : Fin 1))))) := by
  unfold Host.gather
  congr 1
  funext a
  obtain rfl : a = 0 := Subsingleton.elim _ _
  refine Fin.ext ?_
  show gather_S16_S32x128x4096x1_S32x128x4096_n_0_n_n_0_3_1.start (ix3 g t j) idx 0
    + gather_S16_S32x128x4096x1_S32x128x4096_n_0_n_n_0_3_1.batchCoord (ix3 g t j) 0
    + gather_S16_S32x128x4096x1_S32x128x4096_n_0_n_n_0_3_1.offCoord (ix3 g t j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S32x128x4096x1_S32x128x4096_n_0_n_n_0_3_1.startIndexMap from List.mem_singleton.mpr rfl)]
  have hsi : gather_S16_S32x128x4096x1_S32x128x4096_n_0_n_n_0_3_1.siIdx (ix3 g t j)
      ⟨List.idxOf (0 : Fin 1) gather_S16_S32x128x4096x1_S32x128x4096_n_0_n_n_0_3_1.startIndexMap,
        List.idxOf_lt_length_iff.2 (List.mem_singleton.mpr rfl)⟩ = ix4 g t j (0 : Fin 1) := by
    funext b; refine Fin.ext ?_
    match b with
    | ⟨0, _⟩ => rfl
    | ⟨1, _⟩ => rfl
    | ⟨2, _⟩ => rfl
    | ⟨3, _⟩ => rfl
  rw [hsi]
  rfl

/-! ## The scales, and the weight -/

/-- The scales laid along a new middle axis of 128 rows: entry `(g, t, j)` is scale `(g, j)`. -/
theorem bcast_scales {α : Type} (sc : S32x4096.Idx → α) (g : Fin 32) (t : Fin 128) (j : Fin 4096) :
    broadcastInDim S32x128x4096 ![0, 1, 2] bcast_S32x1x4096_S32x128x4096_0_1_2
      (broadcastInDim S32x1x4096 ![0, 2] bcast_S32x4096_S32x1x4096_0_2 sc) (ix3 g t j) = sc (ix2 g j) := by
  refine (broadcastInDim_apply _ _ _ (ix3 g t j) (ix3 g (0 : Fin 1) j) ?_).trans
    (broadcastInDim_apply _ _ _ (ix3 g (0 : Fin 1) j) (ix2 g j) ?_)
  · intro c
    match c with
    | ⟨0, _⟩ => rfl
    | ⟨1, _⟩ => rfl
    | ⟨2, _⟩ => rfl
  · intro c
    match c with
    | ⟨0, _⟩ => rfl
    | ⟨1, _⟩ => rfl

/-- An array with a trailing axis of one entry added: entry `(g, t, j, 0)` is entry `(g, t, j)`. -/
theorem bcast_unit {α : Type} (v : S32x128x4096.Idx → α) (g : Fin 32) (t : Fin 128) (j : Fin 4096) :
    broadcastInDim S32x128x4096x1 ![0, 1, 2] bcast_S32x128x4096_S32x128x4096x1_0_1_2 v (ix4 g t j (0 : Fin 1)) = v (ix3 g t j) := by
  refine broadcastInDim_apply _ _ _ (ix4 g t j (0 : Fin 1)) (ix3 g t j) ?_
  intro c
  match c with
  | ⟨0, _⟩ => rfl
  | ⟨1, _⟩ => rfl
  | ⟨2, _⟩ => rfl

/-- A code is below sixteen. -/
theorem nibble_lt (w : BitVec 32) (s : Nat) : (Cert.QLin.nibble w s).toNat < 16 := by
  unfold Cert.QLin.nibble
  rw [BitVec.toNat_and]
  exact lt_of_le_of_lt Nat.and_le_right (by decide)

/-- At a word below sixteen, reading it signed and clamping it into `[0, 15]` change nothing: the table's entry there is
    the word's level. -/
theorem table_at_code (c : BitVec 32) (h : c.toNat < 16) :
    refTable (F := Ideal) (ix1 (clampCode c)) = Cert.QLin.level c := by
  have hi : c.toInt = (c.toNat : Int) := BitVec.toInt_eq_toNat_of_lt (by omega)
  have e : clampCode c = ⟨c.toNat % 16, Nat.mod_lt _ (by decide)⟩ := Fin.ext (by
    show min c.toInt.toNat 15 = c.toNat % 16
    omega)
  rw [e, refTable_apply]
  rfl

/-- The reference's dequantised weight is the specification's weight array. -/
theorem refWeight_eq (sc : (⟨S32x4096, .f32⟩ : BufTy).Contents (Elt Ideal)) (qw : (⟨S512x4096, .i32⟩ : BufTy).Contents (Elt Ideal)) :
    refWeight (F := Ideal) sc qw = Cert.QLin.weightArr qw sc := by
  funext y
  obtain ⟨k, j, rfl⟩ : ∃ (k j : Fin 4096), y = ix2 k j := ⟨y 0, y 1, eq_ix2 y⟩
  have hk := k.isLt
  rw [Cert.QLin.weightArr_apply]
  unfold refWeight
  refine (shapeCast_apply _ _ (ix2 k j)
    (ix3 (⟨k.val / 128, by omega⟩ : Fin 32) (⟨k.val % 128, Nat.mod_lt _ (by decide)⟩ : Fin 128) j) ?_).trans ?_
  · rw [Shape.rowMajor_val_three, Shape.rowMajor_val_two]
    show (k.val / 128 * 128 + k.val % 128) * 4096 + j.val = k.val * 4096 + j.val
    omega
  · rw [mulf_apply, gather_codes_apply, bcast_scales, bcast_unit, refCodes_apply, table_at_code _ (nibble_lt _ _)]
    have e : k.val / 128 * 128 + k.val % 128 = k.val := by omega
    show Cert.QLin.level (Cert.QLin.nibble (qw (ix2 ⟨(k.val / 128 * 128 + k.val % 128) / 8, _⟩ j))
        ((k.val / 128 * 128 + k.val % 128) % 8)) * sc (ix2 ⟨k.val / 128, _⟩ j)
      = Cert.QLin.level (Cert.QLin.nibble (qw (ix2 ⟨k.val / 8, _⟩ j)) (k.val % 8)) * sc (ix2 ⟨k.val / 128, _⟩ j)
    simp only [e]

/-! ## The product and the bias -/

/-- The bias laid along every row: entry `(r, j)` is bias `j`. -/
theorem bcast_bias {α : Type} (b : S4096.Idx → α) (r : Fin 8192) (j : Fin 4096) :
    broadcastInDim S8192x4096 ![0, 1] bcast_S1x4096_S8192x4096_0_1
      (broadcastInDim S1x4096 ![1] bcast_S4096_S1x4096_1 b) (ix2 r j) = b (ix1 j) := by
  refine (broadcastInDim_apply _ _ _ (ix2 r j) (ix2 (0 : Fin 1) j) ?_).trans
    (broadcastInDim_apply _ _ _ (ix2 (0 : Fin 1) j) (ix1 j) ?_)
  · intro c
    match c with
    | ⟨0, _⟩ => rfl
    | ⟨1, _⟩ => rfl
  · intro c
    match c with
    | ⟨0, _⟩ => rfl

/-- The product's left operand index: its row is the result's row … -/
theorem lhs_dot_0 (i : S8192x4096.Idx) (q : dot_S8192x4096_S4096x4096_S8192x4096_1_0_0_1_n_n.contr.Idx) :
    (dot_S8192x4096_S4096x4096_S8192x4096_1_0_0_1_n_n.lhsIdx i q 0).val = (i 0).val := by
  unfold DotDims.lhsIdx
  rw [dif_neg (show ¬(0 : Fin S8192x4096.rank) ∈ dot_S8192x4096_S4096x4096_S8192x4096_1_0_0_1_n_n.lhsBatch by decide),
    dif_pos (show (0 : Fin S8192x4096.rank) ∈ dot_S8192x4096_S4096x4096_S8192x4096_1_0_0_1_n_n.lhsNonContracting by decide)]
  rfl
/-- … and its column the contracted position. -/
theorem lhs_dot_1 (i : S8192x4096.Idx) (q : dot_S8192x4096_S4096x4096_S8192x4096_1_0_0_1_n_n.contr.Idx) :
    (dot_S8192x4096_S4096x4096_S8192x4096_1_0_0_1_n_n.lhsIdx i q 1).val = (q ⟨0, by decide⟩).val :=
  dot_S8192x4096_S4096x4096_S8192x4096_1_0_0_1_n_n.lhsIdx_val_of_single rfl i q
/-- The right operand index: its row is the contracted position … -/
theorem rhs_dot_0 (i : S8192x4096.Idx) (q : dot_S8192x4096_S4096x4096_S8192x4096_1_0_0_1_n_n.contr.Idx) :
    (dot_S8192x4096_S4096x4096_S8192x4096_1_0_0_1_n_n.rhsIdx i q 0).val = (q ⟨0, by decide⟩).val :=
  dot_S8192x4096_S4096x4096_S8192x4096_1_0_0_1_n_n.rhsIdx_val_of_single rfl i q
/-- … and its column the result's column. -/
theorem rhs_dot_1 (i : S8192x4096.Idx) (q : dot_S8192x4096_S4096x4096_S8192x4096_1_0_0_1_n_n.contr.Idx) :
    (dot_S8192x4096_S4096x4096_S8192x4096_1_0_0_1_n_n.rhsIdx i q 1).val = (i 1).val := by
  unfold DotDims.rhsIdx
  rw [dif_neg (show ¬(1 : Fin S4096x4096.rank) ∈ dot_S8192x4096_S4096x4096_S8192x4096_1_0_0_1_n_n.rhsBatch by decide),
    dif_pos (show (1 : Fin S4096x4096.rank) ∈ dot_S8192x4096_S4096x4096_S8192x4096_1_0_0_1_n_n.rhsNonContracting by decide)]
  rfl

/-- The host's product of an 8192 × 4096 matrix with a 4096 × 4096 one, on the extended reals: entry `(r, j)` is the sum
    over the 4096 contracted positions of the products of the entries. -/
theorem dot_apply (X : FVec Ideal S8192x4096 .f32) (W : FVec Ideal S4096x4096 .f32) (r : Fin 8192) (j : Fin 4096) :
    Host.dotGeneral (F := Ideal) dot_S8192x4096_S4096x4096_S8192x4096_1_0_0_1_n_n none X W (ix2 r j) = ∑ k : Fin 4096, X (ix2 r k) * W (ix2 k j) := by
  simp only [Host.dotGeneral]
  rw [Ideal.dotGeneral_apply, ← Equiv.sum_comp (contrEquiv1 dot_S8192x4096_S4096x4096_S8192x4096_1_0_0_1_n_n 4096 rfl rfl).symm]
  refine Finset.sum_congr rfl fun k _ => ?_
  have hk := contrEquiv1_symm_val dot_S8192x4096_S4096x4096_S8192x4096_1_0_0_1_n_n 4096 rfl rfl k
  have el : dot_S8192x4096_S4096x4096_S8192x4096_1_0_0_1_n_n.lhsIdx (ix2 r j) ((contrEquiv1 dot_S8192x4096_S4096x4096_S8192x4096_1_0_0_1_n_n 4096 rfl rfl).symm k) = ix2 r k :=
    funext fun a => Fin.ext (by
      match a with
      | ⟨0, _⟩ => exact lhs_dot_0 _ _
      | ⟨1, _⟩ => exact (lhs_dot_1 _ _).trans hk)
  have er : dot_S8192x4096_S4096x4096_S8192x4096_1_0_0_1_n_n.rhsIdx (ix2 r j) ((contrEquiv1 dot_S8192x4096_S4096x4096_S8192x4096_1_0_0_1_n_n 4096 rfl rfl).symm k) = ix2 k j :=
    funext fun a => Fin.ext (by
      match a with
      | ⟨0, _⟩ => exact (rhs_dot_0 _ _).trans hk
      | ⟨1, _⟩ => exact rhs_dot_1 _ _)
  rw [el, er]

/-- The reference's result before its last regrouping is the specification's matrix. -/
theorem refFlat_eq (x : (⟨S4x2048x4096, .f32⟩ : BufTy).Contents (Elt Ideal)) (sc : (⟨S32x4096, .f32⟩ : BufTy).Contents (Elt Ideal))
    (b : (⟨S4096, .f32⟩ : BufTy).Contents (Elt Ideal)) (qw : (⟨S512x4096, .i32⟩ : BufTy).Contents (Elt Ideal)) :
    refFlat (F := Ideal) x sc b qw
      = Cert.QLin.linear (shapeCast S8192x4096 x shapeCasts_S4x2048x4096_S8192x4096) sc (Cert.QLin.biasRow b) qw := by
  funext y
  obtain ⟨r, j, rfl⟩ : ∃ (r : Fin 8192) (j : Fin 4096), y = ix2 r j := ⟨y 0, y 1, eq_ix2 y⟩
  rw [Cert.QLin.linear_apply]
  unfold refFlat
  rw [addf_apply, refWeight_eq, dot_apply, bcast_bias]
  rfl

end Cert.ReferenceIdeal.RefValue

end
-- ==== Proof.lean ====
/-
  A 4-bit quantised linear layer: the kernel against its reference, over the extended reals.

  Both programs compute `x · W + b` where row `k` of `W` is the level selected by code `k % 8` of packed word
  `qw[k / 8, ·]`, scaled by `scale[k / 128, ·]` (Proof/Spec.lean states that function once).  The reference unpacks
  all codes with shifts and a mask, indexes a table of sixteen levels, scales, and multiplies once.  The kernel works
  block by block over a 4 × 16 grid: at the first row block of each column block it rebuilds a cache of the 4096
  weight rows for those 1024 columns — picking each level through a tree of selects on the code's four bits instead of
  a table — and at every point multiplies a block of 512 activation rows by the cache and adds the bias.  The tree of
  selects is the table on every code (Proof/Lookup.lean), the cache is the weight's column block at every point
  (Proof/Points.lean), the 64 output blocks tile the result (Proof/Final.lean), and the reference's term read entry by
  entry is the same sum (Proof/RefRead.lean).  Sums and products only are compared, term by term, so the finiteness of
  the inputs is not used.  The pass that idealizes the kernel rewrote nothing, so `preserves` is trivial.
-/
import proofs.«402091_j15539191677564_2_alg».proof.Defs
import proofs.«402091_j15539191677564_2_alg».proof.Proof.Gen.Kernel
import proofs.«402091_j15539191677564_2_alg».proof.Proof.Gen.Kernel.Frame
import proofs.«402091_j15539191677564_2_alg».proof.Proof.Gen.KernelIdeal
import proofs.«402091_j15539191677564_2_alg».proof.Proof.Gen.KernelIdeal.Frame
import proofs.«402091_j15539191677564_2_alg».proof.Proof.Gen.ReferenceIdeal
import proofs.«402091_j15539191677564_2_alg».proof.Proof.Gen.Pre_finite_inputs
import proofs.«402091_j15539191677564_2_alg».proof.Proof.Final
import proofs.«402091_j15539191677564_2_alg».proof.Proof.RefRun
import proofs.«402091_j15539191677564_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end with the result at the regrouped specification matrix of the (agreeing) arguments. -/
theorem algebraic : Cert.algebraic_KernelIdeal_ReferenceIdeal := by
  intro m ρ m' ρ' _ hagree
  refine ⟨_, Cert.KernelIdeal.Deq.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  unfold Cert.ReferenceIdeal.RefValue.refTerm
  rw [Cert.ReferenceIdeal.RefValue.refFlat_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
